-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S2x16384 : S_.BroadcastsInDim S2x16384 (![] : Fin 0 → Fin S2x16384.rank)
  reducesTo_S2x16384_S_d0_1 : S2x16384.ReducesTo [0, 1] S_

variable [Facts]

def fn_part1 {F : FTy → Type} [FloatOps F] (main_arg4 : FVec F S4 .f32) (main_arg5 : FVec F S2x16384 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x16384 .f32 := Host.absf main_arg5
  let main_cst_8 : FVec F S_ .f32 := constant S_ .f32 0x7F800000#32
  let main_v25 : FVec F S2x16384 .f32 := broadcastInDim S2x16384 ![] bcast_S_S2x16384 main_cst_8
  let main_v26 : IVec S2x16384 1 := cmpf .olt main_v24 main_v25
  let main_c_9 : IVec S_ 1 := constantI S_ 1 1#1
  let main_v27 : IVec S_ 1 := (fun x v => Host.reduce IntOp.andi x v reducesTo_S2x16384_S_d0_1 h_S_) main_v26 main_c_9
  let main_v28 : IVec S_ 1 := andi main_v23 main_v27
  main_v28

def fn {F : FTy → Type} [FloatOps F] (main_arg0 : FVec F S16384x128 .f32) (main_arg1 : FVec F S128x256 .f32) (main_arg2 : FVec F S256 .f32) (main_arg3 : FVec F S256x4 .f32) (main_arg4 : FVec F S4 .f32) (main_arg5 : FVec F S2x16384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4 .f32 := Host.absf main_arg3
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg4 main_arg5 main_v13 main_v16
-- ==== Kernel.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S1x16384 : Shape := ⟨2, ![1, 16384]⟩
abbrev S1024x128 : Shape := ⟨2, ![1024, 128]⟩
abbrev S2x4096 : Shape := ⟨2, ![2, 4096]⟩
abbrev S1x4096 : Shape := ⟨2, ![1, 4096]⟩
abbrev S4x1 : Shape := ⟨2, ![4, 1]⟩
abbrev S1024x256 : Shape := ⟨2, ![1024, 256]⟩
abbrev S1x256 : Shape := ⟨2, ![1, 256]⟩
abbrev S4x1024 : Shape := ⟨2, ![4, 1024]⟩
abbrev S2x1024 : Shape := ⟨2, ![2, 1024]⟩
abbrev S1x1024 : Shape := ⟨2, ![1, 1024]⟩
abbrev S16384 : Shape := ⟨1, ![16384]⟩

abbrev nBuf : Space → Nat
  | .hbm => 8
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x4, .f32⟩
  | .hbm, ⟨4, _⟩ => ⟨S4, .f32⟩
  | .hbm, ⟨5, _⟩ => ⟨S2x16384, .f32⟩
  | .hbm, ⟨6, _⟩ => ⟨S1x16384, .f32⟩
  | .hbm, ⟨7, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S256, .f32⟩
  | .local _ .vmem, ⟨10, _⟩ => ⟨S256x4, .f32⟩
  | .local _ .vmem, ⟨11, _⟩ => ⟨S4, .f32⟩
  | .local _ .vmem, ⟨12, _⟩ => ⟨S2x4096, .f32⟩
  | .local _ .vmem, ⟨13, _⟩ => ⟨S2x4096, .f32⟩
  | .local _ .vmem, ⟨14, _⟩ => ⟨S1x4096, .f32⟩
  | .local _ .vmem, ⟨15, _⟩ => ⟨S1x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x256_S128x256_0_0 : ∀ a, (![0, 0] : Fin 2 → Nat) a + S128x256.size a ≤ S128x256.size a
  h_S128x256 : 0 < S128x256.numel
  inb_S256x4_S256x4_0_0 : ∀ a, (![0, 0] : Fin 2 → Nat) a + S256x4.size a ≤ S256x4.size a
  h_S256x4 : 0 < S256x4.numel
  inb_S256_S256_0 : ∀ a, (![0] : Fin 1 → Nat) a + S256.size a ≤ S256.size a
  h_S256 : 0 < S256.numel
  inb_S4_S4_0 : ∀ a, (![0] : Fin 1 → Nat) a + S4.size a ≤ S4.size a
  h_S4 : 0 < S4.numel
  shapeCasts_S4_S4x1 : S4.ShapeCasts S4x1
  inb_S1024x128_S1024x128_0_0 : ∀ a, (![0, 0] : Fin 2 → Nat) a + S1024x128.size a ≤ S1024x128.size a
  h_S1024x128 : 0 < S1024x128.numel
  shapeCasts_S256_S1x256 : S256.ShapeCasts S1x256
  broadcasts_S1x256_S1024x256 : S1x256.Broadcasts S1024x256
  broadcasts_S4x1_S4x1024 : S4x1.Broadcasts S4x1024
  inb_S2x4096_S2x1024_0_0 : ∀ a, (![0, 0] : Fin 2 → Nat) a + S2x1024.size a ≤ S2x4096.size a
  h_S2x1024 : 0 < S2x1024.numel
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  slices_S2x1024_o0_0_S1x1024 : S2x1024.Slices ![0, 0] S1x1024
  slices_S2x1024_o1_0_S1x1024 : S2x1024.Slices ![1, 0] S1x1024
  inb_S1x4096_S1x1024_0_0 : ∀ a, (![0, 0] : Fin 2 → Nat) a + S1x1024.size a ≤ S1x4096.size a
  h_S1x1024 : 0 < S1x1024.numel
  inb_S2x4096_S2x1024_0_1024 : ∀ a, (![0, 1024] : Fin 2 → Nat) a + S2x1024.size a ≤ S2x4096.size a
  inb_S1x4096_S1x1024_0_1024 : ∀ a, (![0, 1024] : Fin 2 → Nat) a + S1x1024.size a ≤ S1x4096.size a
  inb_S2x4096_S2x1024_0_2048 : ∀ a, (![0, 2048] : Fin 2 → Nat) a + S2x1024.size a ≤ S2x4096.size a
  inb_S1x4096_S1x1024_0_2048 : ∀ a, (![0, 2048] : Fin 2 → Nat) a + S1x1024.size a ≤ S1x4096.size a
  inb_S2x4096_S2x1024_0_3072 : ∀ a, (![0, 3072] : Fin 2 → Nat) a + S2x1024.size a ≤ S2x4096.size a
  inb_S1x4096_S1x1024_0_3072 : ∀ a, (![0, 3072] : Fin 2 → Nat) a + S1x1024.size a ≤ S1x4096.size a
  shapeCasts_S1x16384_S16384 : S1x16384.ShapeCasts S16384
  dot_S1024x128_S128x256_S1024x256_1_0_0_1_n_n_wf : DotDims.WF S1024x128 S128x256 S1024x256 [1] [0] [0] [1] [] []
  dot_S256x4_S1024x256_S4x1024_0_1_1_0_n_n_wf : DotDims.WF S256x4 S1024x256 S4x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S256x4.size a
  hwx0_6 : ∀ i : grid0.Coords, EltTy.bits .f32 = 32 ∨ (Rect.block (s := S256x4) S256x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x4096.size a ≤ S2x16384.size a
  hwx0_8 : ∀ i : grid0.Coords, EltTy.bits .f32 = 32 ∨ (Rect.block (s := S2x16384) S2x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x16384.size a
  hwx0_9 : ∀ i : grid0.Coords, EltTy.bits .f32 = 32 ∨ (Rect.block (s := S1x16384) S1x4096.size (cc0_transform_9 i) (hinb0_9 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S256x4_S1024x256_S4x1024_0_1_1_0_n_n : DotDims S256x4 S1024x256 S4x1024 where
  lhsContracting := [0]
  rhsContracting := [1]
  lhsNonContracting := [1]
  rhsNonContracting := [0]
  lhsBatch := []
  rhsBatch := []
  wf := dot_S256x4_S1024x256_S4x1024_0_1_1_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S2x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S16384x256 : Shape := ⟨2, ![16384, 256]⟩
abbrev S1x256 : Shape := ⟨2, ![1, 256]⟩
abbrev S16384x4 : Shape := ⟨2, ![16384, 4]⟩
abbrev S1x4 : Shape := ⟨2, ![1, 4]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 66
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x4, .f32⟩
  | .hbm, ⟨4, _⟩ => ⟨S4, .f32⟩
  | .hbm, ⟨5, _⟩ => ⟨S2x16384, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x4, .f32⟩
  | .hbm, ⟨12, _⟩ => ⟨S1x4, .f32⟩
  | .hbm, ⟨13, _⟩ => ⟨S16384x4, .f32⟩
  | .hbm, ⟨14, _⟩ => ⟨S16384x4, .f32⟩
  | .hbm, ⟨15, _⟩ => ⟨S16384x2, .f32⟩
  | .hbm, ⟨16, _⟩ => ⟨S16384x2, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x1, .f32⟩
  | .hbm, ⟨23, _⟩ => ⟨S16384x2, .f32⟩
  | .hbm, ⟨24, _⟩ => ⟨S16384x2, .f32⟩
  | .hbm, ⟨25, _⟩ => ⟨S16384x2, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x2, .f32⟩
  | .hbm, ⟨30, _⟩ => ⟨S16384x2, .f32⟩
  | .hbm, ⟨31, _⟩ => ⟨S16384x1, .f32⟩
  | .hbm, ⟨32, _⟩ => ⟨S16384, .f32⟩
  | .hbm, ⟨33, _⟩ => ⟨S1x16384, .f32⟩
  | .hbm, ⟨34, _⟩ => ⟨S16384, .f32⟩
  | .hbm, ⟨35, _⟩ => ⟨S1x16384, .f32⟩
  | .hbm, ⟨36, _⟩ => ⟨S16384, .f32⟩
  | .hbm, ⟨37, _⟩ => ⟨S16384, .i1⟩
  | .hbm, ⟨38, _⟩ => ⟨S16384x1, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S16384, .i1⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  slices_S16384x4_S16384x2_0_0 : S16384x4.Slices ![0, 0] S16384x2
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_0 : S16384x2.Slices ![0, 0] S16384x1
  shapeCasts_S16384x1_S16384 : S16384x1.ShapeCasts S16384
  slices_S2x16384_S1x16384_0_0 : S2x16384.Slices ![0, 0] S1x16384
  shapeCasts_S1x16384_S16384 : S1x16384.ShapeCasts S16384
  slices_S2x16384_S1x16384_1_0 : S2x16384.Slices ![1, 0] S1x16384
  slices_S16384x2_S16384x1_0_1 : S16384x2.Slices ![0, 1] S16384x1
  dot_S16384x128_S128x256_S16384x256_1_0_0_1_n_n_wf : DotDims.WF S16384x128 S128x256 S16384x256 [1] [0] [0] [1] [] []
  dot_S16384x256_S256x4_S16384x4_1_0_0_1_n_n_wf : DotDims.WF S16384x256 S256x4 S16384x4 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x4_S16384x4_1_0_0_1_n_n : DotDims S16384x256 S256x4 S16384x4 where
  lhsContracting := [1]
  rhsContracting := [0]
  lhsNonContracting := [0]
  rhsNonContracting := [1]
  lhsBatch := []
  rhsBatch := []
  wf := dot_S16384x256_S256x4_S16384x4_1_0_0_1_n_n_wf

class Facts : Prop extends Facts₀ where

variable [Facts]
-- ==== Proof.KI.Data.lean ====
/-
  The one pallas_call of this program reads the row array x through FOUR windows (row stream p of grid point i is the
  block of 1024 rows number 4 i + p), the two weight matrices and the two bias vectors whole, and the two uniform draws
  by blocks of 4096 columns; it writes one block of 4096 results per grid point, in four slices of 1024, slice p from
  row stream p. This module fixes, for any float instance: the contents the region finds, each window's block at a
  point, the four stored slices as terms over the blocks, the output buffer after the body as the canon of the four
  stores, and the pipeline's proof data. The four windows on x hold a quarter share of it each.
-/
import proofs.«151368_g74328704025318_cont_9to1c4b_615_4_alg».proof.Proof.Gen.KernelIdeal.Launch
import proofs.«151368_g74328704025318_cont_9to1c4b_615_4_alg».proof.Proof.Gen.KernelIdeal.Skeleton
import proofs.«151368_g74328704025318_cont_9to1c4b_615_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s TensorCore buffers when the region is entered: as launched (the region is the first item of @main). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S1024x128 := Rect.unit (s := S1024x128) ![0, 0] S1024x128.size inb_S1024x128_S1024x128_0_0
abbrev rW1 : Rect S128x256 := Rect.unit (s := S128x256) ![0, 0] S128x256.size inb_S128x256_S128x256_0_0
abbrev rB1 : Rect S256 := Rect.unit (s := S256) ![0] S256.size inb_S256_S256_0
abbrev rW2 : Rect S256x4 := Rect.unit (s := S256x4) ![0, 0] S256x4.size inb_S256x4_S256x4_0_0
abbrev rB2 : Rect S4 := Rect.unit (s := S4) ![0] S4.size inb_S4_S4_0
abbrev rU0 : Rect S2x4096 := Rect.unit (s := S2x4096) ![0, 0] S2x1024.size inb_S2x4096_S2x1024_0_0
abbrev rU1 : Rect S2x4096 := Rect.unit (s := S2x4096) ![0, 1024] S2x1024.size inb_S2x4096_S2x1024_0_1024
abbrev rU2 : Rect S2x4096 := Rect.unit (s := S2x4096) ![0, 2048] S2x1024.size inb_S2x4096_S2x1024_0_2048
abbrev rU3 : Rect S2x4096 := Rect.unit (s := S2x4096) ![0, 3072] S2x1024.size inb_S2x4096_S2x1024_0_3072
abbrev rO0 : Rect S1x4096 := Rect.unit (s := S1x4096) ![0, 0] S1x1024.size inb_S1x4096_S1x1024_0_0
abbrev rO1 : Rect S1x4096 := Rect.unit (s := S1x4096) ![0, 1024] S1x1024.size inb_S1x4096_S1x1024_0_1024
abbrev rO2 : Rect S1x4096 := Rect.unit (s := S1x4096) ![0, 2048] S1x1024.size inb_S1x4096_S1x1024_0_2048
abbrev rO3 : Rect S1x4096 := Rect.unit (s := S1x4096) ![0, 3072] S1x1024.size inb_S1x4096_S1x1024_0_3072

/-! ## The four stored slices, over the loaded values -/

/-- Slice 0: from row stream 0 (`v5`) and columns 0..1023 of the draws' block (`v14`). -/
def slice0 (v0 : Vec F S128x256 .f32) (v1 : Vec F S256x4 .f32) (v2 : Vec F S256 .f32) (v3 : Vec F S4 .f32)
    (v5 : Vec F S1024x128 .f32) (v14 : Vec F S2x1024 .f32) : FVec F S1x1024 .f32 :=
  k0_pay11 (k0_pay4 v0 v1 v2 v3 v5) (k0_pay5 v0 v1 v2 v3 v5) (k0_pay6 v0 v1 v2 v3 v5) (k0_pay7 v14) (k0_pay8 v14) (k0_pay9 v14) (k0_pay10 (F := F))

/-- Slice 1: from row stream 1 (`v54`) and columns 1024..2047 of the draws' block (`v63`). -/
def slice1 (v0 : Vec F S128x256 .f32) (v1 : Vec F S256x4 .f32) (v2 : Vec F S256 .f32) (v3 : Vec F S4 .f32)
    (v54 : Vec F S1024x128 .f32) (v63 : Vec F S2x1024 .f32) : FVec F S1x1024 .f32 :=
  k0_pay19 (k0_pay13 v0 v1 v2 (k0_pay2 v3) v54) (k0_pay14 v0 v1 v2 (k0_pay2 v3) v54) (k0_pay15 v0 v1 v2 (k0_pay2 v3) v54) (k0_pay16 v63) (k0_pay17 v63) (k0_pay18 v63)

/-- Slice 2: from row stream 2 (`v103`) and columns 2048..3071 of the draws' block (`v112`). -/
def slice2 (v0 : Vec F S128x256 .f32) (v1 : Vec F S256x4 .f32) (v2 : Vec F S256 .f32) (v3 : Vec F S4 .f32)
    (v103 : Vec F S1024x128 .f32) (v112 : Vec F S2x1024 .f32) : FVec F S1x1024 .f32 :=
  k0_pay25 v112 (k0_pay21 v0 v1 v2 (k0_pay2 v3) v103) (k0_pay22 v0 v1 v2 (k0_pay2 v3) v103) (k0_pay23 v0 v1 v2 (k0_pay2 v3) v103) (k0_pay24 v112)

/-- Slice 3: from row stream 3 (`v152`) and columns 3072..4095 of the draws' block (`v161`). -/
def slice3 (v0 : Vec F S128x256 .f32) (v1 : Vec F S256x4 .f32) (v2 : Vec F S256 .f32) (v3 : Vec F S4 .f32)
    (v152 : Vec F S1024x128 .f32) (v161 : Vec F S2x1024 .f32) : FVec F S1x1024 .f32 :=
  k0_pay1 v161 (k0_pay27 v0 v1 v2 (k0_pay2 v3) v152) (k0_pay29 v0 v1 v2 (k0_pay2 v3) v152) (k0_pay31 v0 v1 v2 (k0_pay2 v3) v152)
    (k0_pay32 v0 v1 v2 (k0_pay2 v3) v152) (k0_pay33 v0 v1 v2 (k0_pay2 v3) v152)

/-! ## What the body leaves in the output window's buffer -/

/-- The output window's staging buffer after the body, from the input windows' blocks: its four stores as pieces,
    LAST FIRST. -/
def out9 (x0 x1 x2 x3 : Vec F S1024x128 .f32) (w1 : Vec F S128x256 .f32) (b1 : Vec F S256 .f32) (w2 : Vec F S256x4 .f32)
    (b2 : Vec F S4 .f32) (u : Vec F S2x4096 .f32) : Vec F S1x4096 .f32 :=
  View.canon
    [⟨rO3, slice3 (View.ld w1 rW1) (View.ld w2 rW2) (View.ld b1 rB1) (View.ld b2 rB2) (View.ld x3 rX) (View.ld u rU3)⟩,
     ⟨rO2, slice2 (View.ld w1 rW1) (View.ld w2 rW2) (View.ld b1 rB1) (View.ld b2 rB2) (View.ld x2 rX) (View.ld u rU2)⟩,
     ⟨rO1, slice1 (View.ld w1 rW1) (View.ld w2 rW2) (View.ld b1 rB1) (View.ld b2 rB2) (View.ld x1 rX) (View.ld u rU1)⟩,
     ⟨rO0, slice0 (View.ld w1 rW1) (View.ld w2 rW2) (View.ld b1 rB1) (View.ld b2 rB2) (View.ld x0 rX) (View.ld u rU0)⟩]

/-- The four slices tile the buffer, so they cover it. -/
theorem cover9 (p3 p2 p1 p0 : Vec F S1x1024 .f32) (y : S1x4096.Idx) :
    ∃ pc ∈ ([⟨rO3, p3⟩, ⟨rO2, p2⟩, ⟨rO1, p1⟩, ⟨rO0, p0⟩] : List (View.Piece (Elt F) S1x4096 .f32)), y ∈ pc.1.set :=
  View.cover_of_tiled [⟨rO3, p3⟩, ⟨rO2, p2⟩, ⟨rO1, p1⟩, ⟨rO0, p0⟩] S1x1024.size (by rfl) y

/-! ## The pipeline's proof data -/

/-- The proof data of the one pipeline on core `c`: the arrays as the region finds them; after the body at point `t`
    each input's buffer at its block and the output's at `out9` of the input blocks; the invariant the scoped rest and
    the generator register, untouched; nothing owed; the four windows on x a quarter share each, every other input
    the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = out9 (iblk m c 0 t) (iblk m c 1 t) (iblk m c 2 t) (iblk m c 3 t) (iblk m c 4 t) (iblk m c 5 t) (iblk m c 6 t) (iblk m c 7 t) (iblk m c 8 t) := by
  dsimp only [dats]

theorem owed_eq (c : Dev nD) (t : Fin (cfg0.N + 1)) : (dats m 0 c).owed t = 0 := rfl

end Cert.KernelIdeal.Hand

end
-- ==== Proof.KI.Body.lean ====
/-
  The kernel body at one grid point. Holding the nine input windows' staging buffers at their blocks and the output
  window's at anything, the body loads the weights, the biases, the four row blocks and four slices of the draws'
  block, reads each output slice once before it overwrites it (the value read is not used), and stores the four
  slices; it ends with the inputs as they were and the output buffer at the canon of the four stores. From this the
  pipeline's body obligation at every point: an input window's current buffer holds its block whether the point
  fetched it or not (the weights and biases are fetched at the first point only and their block index never moves).
-/
import proofs.«151368_g74328704025318_cont_9to1c4b_615_4_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers hold their blocks

An input window's current staging buffer holds, at every point, the block a fetch there would bring: at a point that
fetches it, because it was just fetched; at a point that does not (the weights and biases after the first point), because
the block index has not moved since the last fetch and the body leaves the buffer as it found it. No window here is cut
or idle, so what a fetch brings is the block itself. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
      (fun t => by rw [after8]; unfold Dat.blockOf iblk; rw [A_eq]; try rfl) t d).trans
    (by unfold Dat.fetched Dat.blockOf iblk; rw [A_eq]; try rfl)

/-! ## The body's triple -/

set_option maxHeartbeats 4000000 in
/-- The body on whole staging buffers: the four row blocks at `x0 … x3`, the weights and biases at `w1 b1 w2 b2`, the
    draws' block at `u`, the output buffer at anything. It reads each input through its literal rectangle and writes the
    output buffer's four quarters in turn, each after one read of that quarter whose value goes nowhere. The inputs
    come back as they were. The four stores tile the output buffer, so whatever it held is gone and it reads as the
    canon of the four pieces, last store first: `out9` of the inputs' contents. -/
theorem sound_kernel (c : Dev nD) (E : Set ℕ) (i : grid0.Coords)
    (a1 : Memref sig .tc .vmem S1024x128 .f32) (h1 : a1.IsWhole) (a2 : Memref sig .tc .vmem S1024x128 .f32) (h2 : a2.IsWhole)
    (a3 : Memref sig .tc .vmem S1024x128 .f32) (h3 : a3.IsWhole) (a4 : Memref sig .tc .vmem S1024x128 .f32) (h4 : a4.IsWhole)
    (a5 : Memref sig .tc .vmem S128x256 .f32) (h5 : a5.IsWhole) (a6 : Memref sig .tc .vmem S256 .f32) (h6 : a6.IsWhole)
    (a7 : Memref sig .tc .vmem S256x4 .f32) (h7 : a7.IsWhole) (a8 : Memref sig .tc .vmem S4 .f32) (h8 : a8.IsWhole)
    (a9 : Memref sig .tc .vmem S2x4096 .f32) (h9 : a9.IsWhole) (a10 : Memref sig .tc .vmem S1x4096 .f32) (h10 : a10.IsWhole)
    (x0 x1 x2 x3 : Vec F S1024x128 .f32) (w1 : Vec F S128x256 .f32) (b1 : Vec F S256 .f32) (w2 : Vec F S256x4 .f32)
    (b2 : Vec F S4 .f32) (u : Vec F S2x4096 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare w1 ∗ owns (c : Thread nD τ) a6 fullShare b1
        ∗ owns (c : Thread nD τ) a7 fullShare w2 ∗ owns (c : Thread nD τ) a8 fullShare b2
        ∗ owns (c : Thread nD τ) a9 fullShare u ∗ (∃ d, owns (c : Thread nD τ) a10 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare w1 ∗ owns (c : Thread nD τ) a6 fullShare b1
            ∗ owns (c : Thread nD τ) a7 fullShare w2 ∗ owns (c : Thread nD τ) a8 fullShare b2
            ∗ owns (c : Thread nD τ) a9 fullShare u
            ∗ owns (c : Thread nD τ) a10 fullShare (out9 x0 x1 x2 x3 w1 b1 w2 b2 u)) -∗ K ⟨⟩))
      ⊢ wp frame (wpE (defs₀ (F := F)) Variants.none c none) E
          (cc0__body i a1 h1 a2 h2 a3 h3 a4 h4 a5 h5 a6 h6 a7 h7 a8 h8 a9 h9 a10 h10) K := by
  sl_unfold [cc0__body]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%d, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _ _ _ _)

/-! ## The body obligation, at a generic point -/

/-- What the body is called with at point `t`: the invariant, what the core owes, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: the same at the next point, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. Each input's buffer holds its block, so the body's triple applies at the blocks; the
    invariant and what the core owes are the same before and after a point and pass through unread; the output
    buffer is taken at whatever it holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for the proof data `dats`, at every grid point. -/
theorem body_obligation (c : Dev nD) :
    BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of @main: the one region, then the reshape of its [1, 16384] result to [16384]. The region is launched with
  the row array x dealt in quarter shares to the four windows that read it and every other array whole; after the last
  grid point the quarters are still there, the output array holds what the write-backs left, and the reshape reads it
  into the program's result buffer. Every weakly fair execution terminates, each window's array ends at the contents
  the proof data computes (an input array unchanged), and the result buffer at the reshape of the output array.
-/
import proofs.«151368_g74328704025318_cont_9to1c4b_615_4_alg».proof.Proof.KI.Data
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the program's result buffer holds at the end: the [1, 16384] output array read as [16384]. -/
def result (c : Dev nD) : Buf (Elt F) ((c : Thread nD τ).loc main_v1) :=
  shapeCast S16384 ((dats m 0 c).arrAt 9 cfg0.N : FVec F S1x16384 .f32) shapeCasts_S1x16384_S16384

/-- The ten windows' arrays one by one, each the whole buffer behind it at the window's share: x a quarter to each of
    its four windows, every other array whole. -/
theorem arrays_chain (c : Dev nD) (Fn : (w : Fin cfg0.W) → Buf (Elt F) ((cfg0.win w).arr.view.loc (c.tc : Thread nD τ))) :
    ((dats m 0 c).arrays Fn : sProp 𝕄)
      = iprop((((c : Thread nD τ).loc main_arg0) ↦{fullShare.left.left} Fn 0) ∗ (((c : Thread nD τ).loc main_arg0) ↦{fullShare.left.right} Fn 1)
          ∗ (((c : Thread nD τ).loc main_arg0) ↦{fullShare.right.left} Fn 2) ∗ (((c : Thread nD τ).loc main_arg0) ↦{fullShare.right.right} Fn 3)
          ∗ (((c : Thread nD τ).loc main_arg1) ↦{fullShare} Fn 4) ∗ (((c : Thread nD τ).loc main_arg2) ↦{fullShare} Fn 5)
          ∗ (((c : Thread nD τ).loc main_arg3) ↦{fullShare} Fn 6) ∗ (((c : Thread nD τ).loc main_arg4) ↦{fullShare} Fn 7)
          ∗ (((c : Thread nD τ).loc main_arg5) ↦{fullShare} Fn 8) ∗ (((c : Thread nD τ).loc main_v0) ↦{fullShare} Fn 9)) := by
  have h : ((dats m 0 c).arrays Fn : sProp 𝕄)
      = bigSep Finset.univ fun w : Fin 10 => ((((c : Thread nD τ).loc (Pipeline.arrRef spec0 w)) ↦{(dats m 0 c).share w} Fn w : sProp 𝕄)) := by
    unfold Dat.arrays
    exact bigSep_congr fun w _ => by rw [(arr_whole0 w).set_eq_univ]
  rw [h, bigSep_W0]
  rfl

/-- The distinct buffers behind the ten windows' arrays, each whole: the six arguments and the region's result. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_arg3) ↦{fullShare} V' main_arg3)
          ∗ (((c : Thread nD τ).loc main_arg4) ↦{fullShare} V' main_arg4) ∗ (((c : Thread nD τ).loc main_arg5) ↦{fullShare} V' main_arg5)
          ∗ (((c : Thread nD τ).loc main_v0) ↦{fullShare} V' main_v0)) := by
  unfold Pipeline.arrBufs
  exact bigSep_eq_bigSepL_of_eq [main_arg0, main_arg1, main_arg2, main_arg3, main_arg4, main_arg5, main_v0] (by decide) (by decide) _

/-- The deal at the region's entry: x's full share halved twice gives the four windows on it a quarter each; every
    other array goes whole to its one window. -/
theorem hsplit (c : Dev nD) : (Pipeline.arrBufs spec0 c (V m c) : sProp 𝕄) ⊢ (dats m 0 c).arrays ((dats m 0 c).arrAt · 0) := by
  rw [arrBufs_eq, arrays_chain]
  iintro ⟨H0, H1, H2, H3, H4, H5, H6⟩
  ihave H0 := (pointsTo_share (PosShare.mem_left_op_right fullShare)).1 $$ H0
  icases H0 with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  isplitl [H3]; · iexact H3
  isplitl [H4]; · iexact H4
  isplitl [H5]; · iexact H5
  iexact H6

set_option backward.isDefEq.respectTransparency.types false in
/-- The reshape after the region: it reads the output array, which window 9 holds whole, and writes the result
    buffer, which bypassed the region; every array comes back as it was and the result buffer holds the output array
    read at [16384]. -/
theorem tail (c : Dev nD) (Q' : PUnit → sProp 𝕄) :
    iprop((iprop((dats m 0 c).arrays ((dats m 0 c).arrAt · cfg0.N) ∗ (((c.tc : Thread nD τ).loc main_v1) ↦{fullShare} result m c)) -∗ Q' ⟨⟩)
        ∗ boundary (c.tc : Thread nD τ) ∗ (dats m 0 c).arrays ((dats m 0 c).arrAt · cfg0.N)
        ∗ (((c.tc : Thread nD τ).loc main_v1) ↦{fullShare} V m c main_v1))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  obtain ⟨W, hW0, hW1⟩ : ∃ W : Valuation τ sig (Elt F), W (Proc.devRef .tc main_v0) = (dats m 0 c).arrAt 9 cfg0.N
      ∧ W (Proc.devRef .tc main_v1) = V m c main_v1 :=
    ⟨Function.update (fun b => m (c, b)) (Proc.devRef .tc main_v0) ((dats m 0 c).arrAt 9 cfg0.N), Function.update_self ..,
      Function.update_of_ne (StableHlo.devRef_ne_of_ne (by decide)) ..⟩
  have hne : (Proc.devRef (τ := τ) .tc main_v0) ∉ ({Proc.devRef .tc main_v1} : Finset (DevRef τ sig)) := by
    rw [Finset.mem_singleton]; exact StableHlo.devRef_ne_of_ne (by decide)
  have hpre : (StableHlo.held (c.tc : Thread nD τ) {Proc.devRef .tc main_v0, Proc.devRef .tc main_v1} W : sProp 𝕄)
      = iprop((((c.tc : Thread nD τ).loc main_v0) ↦{fullShare} (dats m 0 c).arrAt 9 cfg0.N)
          ∗ (((c.tc : Thread nD τ).loc main_v1) ↦{fullShare} V m c main_v1)) := by
    unfold StableHlo.held
    rw [bigSep_insert hne, bigSep_singleton, hW0, hW1]; rfl
  have hpost : (StableHlo.held (c.tc : Thread nD τ) {Proc.devRef .tc main_v0, Proc.devRef .tc main_v1}
        (StableHlo.after (hostOps1 (F := F)) W) : sProp 𝕄)
      = iprop((((c.tc : Thread nD τ).loc main_v0) ↦{fullShare} (dats m 0 c).arrAt 9 cfg0.N)
          ∗ (((c.tc : Thread nD τ).loc main_v1) ↦{fullShare} result m c)) := by
    unfold StableHlo.held
    rw [bigSep_insert hne, bigSep_singleton, StableHlo.after_cons, StableHlo.after_nil,
      StableHlo.reshape_result_ne _ _ _ _ _ _ _ (show main_v0 ≠ main_v1 by decide), StableHlo.reshape_result, hW0]; rfl
  have hS : ∀ ops ∈ ([hostOps1] : List (List (HloOp τ sig (Elt F)))), ∀ op ∈ ops,
      op.bufs ⊆ ({Proc.devRef .tc main_v0, Proc.devRef .tc main_v1} : Finset (DevRef τ sig)) := by
    intro ops hops op hop
    rw [List.mem_singleton] at hops; subst hops
    rw [List.mem_singleton] at hop; subst hop
    exact subset_rfl
  have hf : ∀ ops ∈ ([hostOps1] : List (List (HloOp τ sig (Elt F)))), ∀ op ∈ ops, op.fresh = ∅ := by
    intro ops hops op hop
    rw [List.mem_singleton] at hops; subst hops
    rw [List.mem_singleton] at hop; subst hop
    rfl
  have hseq := Pipeline.wp_seqs_then (fun q => (cfgs q).toPCfg (Val := Elt F)) defs₀ Variants.none c
    ({Proc.devRef .tc main_v0, Proc.devRef .tc main_v1} : Finset (DevRef τ sig)) [] (K := Q') [hostOps1] hS hf W
  rw [List.map_cons, List.map_nil, List.append_nil, List.flatten_cons, List.flatten_nil, List.append_nil, hpre, hpost] at hseq
  rw [arrays_chain]
  iintro ⟨Hk, Hb, ⟨H0, H1, H2, H3, H4, H5, H6, H7, H8, H9⟩, Hz⟩
  iapply hseq $$ [Hb H9 Hz]
  · isplitl [Hb]; · iexact Hb
    isplitl [H9]; · iexact H9
    iexact Hz
  iintro ⟨Hb, H9, Hz⟩
  rw [Pipeline.chain_nil, wp_pure]
  imodintro
  iapply Hk
  isplitr [Hz]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hz

/-- @main is the region continued by the reshape. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall])
    (by simp only [List.Forall]) main_chain

set_option backward.isDefEq.respectTransparency.types false in
/-- THE RUN, from the body obligation: every window's array at the proof data's final contents, the result buffer at
    `result`. -/
theorem run_main (hbody : ∀ c, Pipeline.BodyObligationLoose (dats (F := F) m 0 c) (defs₀ (F := F)) Variants.none () Set.univ) :
    θ_run (defs (F := F)) (onTc (τ := τ) (main (F := F))) ⟨m, fun _ => 0, ρ⟩ (fun r => ∀ c : Dev nD,
      (∀ w : Fin cfg0.W, r.2.mem ((cfg0.spec w).arr.view.loc (c.tc : Thread nD τ)) = (dats m 0 c).arrAt w cfg0.N)
      ∧ r.2.mem ((c.tc : Thread nD τ).loc main_v1) = result m c) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => iprop(((c.tc : Thread nD τ).loc main_v1) ↦{fullShare} V m c main_v1))
    (Z' := fun c => iprop(((c.tc : Thread nD τ).loc main_v1) ↦{fullShare} result m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail m c Q')
    (QY := fun c s => s.mem ((c.tc : Thread nD τ).loc main_v1) = result m c)
    (hY := fun c s' => by
      iintro ⟨-, Hz, HSI⟩
      icombine HSI Hz gives %h
      imodintro
      isplitr
      · ipureintro; exact Buf.eq_of_forall_mem_univ h
      · iexact HSI)
    (hQ := fun s h c => ⟨(h c).1, (h c).2.2⟩)

/-- An input window's array is never written: it ends as launched. -/
theorem arrAt_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: every weakly fair execution terminates, nothing faults, the six argument arrays end unchanged. -/
theorem frame (hbody : ∀ c, Pipeline.BodyObligationLoose (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (arrAt_in m c 0 rfl), ((h c).1 4).trans (arrAt_in m c 4 rfl), ((h c).1 5).trans (arrAt_in m c 5 rfl),
     ((h c).1 6).trans (arrAt_in m c 6 rfl), ((h c).1 7).trans (arrAt_in m c 7 rfl), ((h c).1 8).trans (arrAt_in m c 8 rfl)⟩)
    (run_main m ρ hbody)

end Cert.KernelIdeal.Hand

end
-- ==== Proof.Spec.lean ====
/-
  The function both programs compute, on the extended reals, one result per row.

  Row r of x goes through one hidden layer, h j = tanh (Σ k, x r k · W1 k j + b1 j), and a four-wide head,
  z c = Σ j, h j · W2 j c + b2 c. The first two head values are logits of a two-way softmax taken against their
  maximum, p = exp (z 0 − max) / (exp (z 0 − max) + exp (z 1 − max)); the third is a location μ and the fourth, through
  softplus, a positive scale s. With the two uniform draws (u 0 r, u 1 r) of the row, the result is 0 where
  u 0 r ≤ p and the log-logistic quantile exp (μ + s · (log (u 1 r) − log1p (−u 1 r))) elsewhere.

  Softplus is written as both programs spell it: max s 0 + log1p (exp (−|s − 0|)), the absolute value as
  max d (−d). The comparison and the choice are kept as the one-bit compare and the select on it.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Hidden unit `j` of a row `x`. -/
def hid (x : Fin 128 → EReal) (W1 : Fin 128 → Fin 256 → EReal) (b1 : Fin 256 → EReal) (j : Fin 256) : EReal :=
  Ideal.tanh ((∑ k : Fin 128, x k * W1 k j) + b1 j)

/-- Head value `c` of a hidden row `h`. -/
def head (h : Fin 256 → EReal) (W2 : Fin 256 → Fin 4 → EReal) (b2 : Fin 4 → EReal) (c : Fin 4) : EReal :=
  (∑ j : Fin 256, h j * W2 j c) + b2 c

/-- Softplus as the programs spell it. -/
def softplus (s : EReal) : EReal :=
  max s 0 + Ideal.log1p (Ideal.exp (-(max (s - 0) (-(s - 0)))))

/-- The mass the two-way softmax gives the first logit. -/
def mass (l0 l1 : EReal) : EReal :=
  Ideal.div (Ideal.exp (l0 - max l0 l1)) (Ideal.exp (l0 - max l0 l1) + Ideal.exp (l1 - max l0 l1))

/-- The log-logistic quantile at `p` with location `mu` and raw scale `sraw`. -/
def quantile (mu sraw p : EReal) : EReal :=
  Ideal.exp (mu + softplus sraw * (Ideal.log p - Ideal.log1p (-p)))

/-- One row's result from its four head values and its two draws. -/
def tail (z : Fin 4 → EReal) (pRain pDist : EReal) : EReal :=
  Scalar.select (Ideal.cmp .ole pRain (mass (z 0) (z 1))) (0 : EReal) (quantile (z 2) (z 3) pDist)

/-- One row's result from the row, the weights and the draws. -/
def rowOut (x : Fin 128 → EReal) (W1 : Fin 128 → Fin 256 → EReal) (b1 : Fin 256 → EReal)
    (W2 : Fin 256 → Fin 4 → EReal) (b2 : Fin 4 → EReal) (pRain pDist : EReal) : EReal :=
  tail (head (hid x W1 b1) W2 b2) pRain pDist

/-- The whole result: entry `r` from row `r` of `x` and column `r` of the draws. -/
def G (x : (⟨2, ![16384, 128]⟩ : Shape).Idx → EReal) (W1 : (⟨2, ![128, 256]⟩ : Shape).Idx → EReal)
    (b1 : (⟨1, ![256]⟩ : Shape).Idx → EReal) (W2 : (⟨2, ![256, 4]⟩ : Shape).Idx → EReal)
    (b2 : (⟨1, ![4]⟩ : Shape).Idx → EReal) (u : (⟨2, ![2, 16384]⟩ : Shape).Idx → EReal) :
    (⟨1, ![16384]⟩ : Shape).Idx → EReal :=
  fun i => rowOut (fun k => x (ix2 (i 0) k)) (fun k j => W1 (ix2 k j)) (fun j => b1 (ix1 j))
    (fun j c => W2 (ix2 j c)) (fun c => b2 (ix1 c)) (u (ix2 (0 : Fin 2) (i 0))) (u (ix2 (1 : Fin 2) (i 0)))

/-! ## The self-comparison that guards softplus never fires on the extended reals -/

theorem cmp_one_self (d : EReal) : Ideal.cmp .one d d = 0#1 := by
  simp [Ideal.cmp]

theorem cmp_une_self (d : EReal) : Ideal.cmp .une d d = 0#1 := by
  simp [Ideal.cmp]

/-- The guarded softplus of both programs is `softplus`: the guard compares a value with itself. -/
theorem guarded_one (s a b : EReal) : Scalar.select (Ideal.cmp .one (s - 0) (s - 0)) a b = b := by
  rw [cmp_one_self]; rfl

theorem guarded_une (s a b : EReal) : Scalar.select (Ideal.cmp .une (s - 0) (s - 0)) a b = b := by
  rw [cmp_une_self]; rfl

/-- Subtracting from zero is negation. -/
theorem zero_sub' (a : EReal) : (0 : EReal) - a = -a := by
  rw [sub_eq_add_neg, zero_add]

end Cert.Spec

end
-- ==== Proof.KI.SliceValue.lean ====
/-
  Each stored slice, read at column j at the ideal instance, is the row function of the specification: slice p of a
  grid point takes row j of row stream p's block of x through the hidden layer and the head (the head computed
  transposed, four rows of 1024 columns, column j belonging to row j of the block), and columns j of the two draws'
  rows in the matching slice of the draws' block.
-/
import proofs.«151368_g74328704025318_cont_9to1c4b_615_4_alg».proof.Proof.KI.Data
import proofs.«151368_g74328704025318_cont_9to1c4b_615_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.ValueIdx
open Cert.KernelIdeal Cert.KernelIdeal.Gen

/-- The row function of the specification at row `j` of a block of x and column `j` of a slice of the draws. -/
abbrev rowOf (v0 : Vec Ideal S128x256 .f32) (v1 : Vec Ideal S256x4 .f32) (v2 : Vec Ideal S256 .f32) (v3 : Vec Ideal S4 .f32)
    (xb : Vec Ideal S1024x128 .f32) (ub : Vec Ideal S2x1024 .f32) (j : Fin 1024) : EReal :=
  Cert.Spec.rowOut (fun k => xb (ix2 j k)) (fun k j' => v0 (ix2 k j')) (fun j' => v2 (ix1 j'))
    (fun j' c => v1 (ix2 j' c)) (fun c => v3 (ix1 c)) (ub (ix2 (0 : Fin 2) j)) (ub (ix2 (1 : Fin 2) j))

/-! ## The two products on the matrix unit, read at an entry -/

theorem lhs_hidden_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_hidden_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_hidden_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_hidden_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The first product, a block of rows times the first weight matrix into the zero accumulator, at entry (r, k): the
    sum over the row's 128 entries of the entry times the weight. -/
theorem hiddenProduct_apply (xb : FVec Ideal S1024x128 .f32) (v0 : FVec Ideal S128x256 .f32) (r : Fin 1024) (k : Fin 256) :
    matmul dot_S1024x128_S128x256_S1024x256_1_0_0_1_n_n none xb v0 (constant (F := Ideal) S1024x256 .f32 0x00000000#32) (ix2 r k)
      = ∑ i : Fin 128, xb (ix2 r i) * v0 (ix2 i k) := by
  refine (Ideal.matmul_constant_zero_apply dot_S1024x128_S128x256_S1024x256_1_0_0_1_n_n none xb v0 (ix2 r k)).trans ?_
  rw [← Equiv.sum_comp (contrEquiv1 dot_S1024x128_S128x256_S1024x256_1_0_0_1_n_n 128 rfl rfl).symm]
  refine Finset.sum_congr rfl fun i _ => ?_
  have hi := contrEquiv1_symm_val dot_S1024x128_S128x256_S1024x256_1_0_0_1_n_n 128 rfl rfl i
  have el : dot_S1024x128_S128x256_S1024x256_1_0_0_1_n_n.lhsIdx (ix2 r k) ((contrEquiv1 dot_S1024x128_S128x256_S1024x256_1_0_0_1_n_n 128 rfl rfl).symm i) = ix2 r i := funext fun a => Fin.ext (by
    match a with
    | ⟨0, _⟩ => exact lhs_hidden_0 _ _
    | ⟨1, _⟩ => exact (lhs_hidden_1 _ _).trans hi)
  have er : dot_S1024x128_S128x256_S1024x256_1_0_0_1_n_n.rhsIdx (ix2 r k) ((contrEquiv1 dot_S1024x128_S128x256_S1024x256_1_0_0_1_n_n 128 rfl rfl).symm i) = ix2 i k := funext fun a => Fin.ext (by
    match a with
    | ⟨0, _⟩ => exact (rhs_hidden_0 _ _).trans hi
    | ⟨1, _⟩ => exact rhs_hidden_1 _ _)
  rw [el, er]

theorem lhs_head_0 (i : S4x1024.Idx) (q : dot_S256x4_S1024x256_S4x1024_0_1_1_0_n_n.contr.Idx) :
    (dot_S256x4_S1024x256_S4x1024_0_1_1_0_n_n.lhsIdx i q 0).val = (q ⟨0, by decide⟩).val :=
  dot_S256x4_S1024x256_S4x1024_0_1_1_0_n_n.lhsIdx_val_of_single rfl i q
theorem lhs_head_1 (i : S4x1024.Idx) (q : dot_S256x4_S1024x256_S4x1024_0_1_1_0_n_n.contr.Idx) :
    (dot_S256x4_S1024x256_S4x1024_0_1_1_0_n_n.lhsIdx i q 1).val = (i 0).val := by
  unfold DotDims.lhsIdx
  rw [dif_neg (show ¬(1 : Fin S256x4.rank) ∈ dot_S256x4_S1024x256_S4x1024_0_1_1_0_n_n.lhsBatch by decide), dif_pos (show (1 : Fin S256x4.rank) ∈ dot_S256x4_S1024x256_S4x1024_0_1_1_0_n_n.lhsNonContracting by decide)]
  rfl
theorem rhs_head_0 (i : S4x1024.Idx) (q : dot_S256x4_S1024x256_S4x1024_0_1_1_0_n_n.contr.Idx) :
    (dot_S256x4_S1024x256_S4x1024_0_1_1_0_n_n.rhsIdx i q 0).val = (i 1).val := by
  unfold DotDims.rhsIdx
  rw [dif_neg (show ¬(0 : Fin S1024x256.rank) ∈ dot_S256x4_S1024x256_S4x1024_0_1_1_0_n_n.rhsBatch by decide), dif_pos (show (0 : Fin S1024x256.rank) ∈ dot_S256x4_S1024x256_S4x1024_0_1_1_0_n_n.rhsNonContracting by decide)]
  rfl
theorem rhs_head_1 (i : S4x1024.Idx) (q : dot_S256x4_S1024x256_S4x1024_0_1_1_0_n_n.contr.Idx) :
    (dot_S256x4_S1024x256_S4x1024_0_1_1_0_n_n.rhsIdx i q 1).val = (q ⟨0, by decide⟩).val :=
  dot_S256x4_S1024x256_S4x1024_0_1_1_0_n_n.rhsIdx_val_of_single rfl i q

/-- The second product, the head's weight matrix contracted on its rows against the hidden block contracted on its
    columns, into the zero accumulator, at entry (c, j): the sum over the 256 hidden units of the weight into head
    value c times hidden unit k of row j. The result is the head transposed: four rows of 1024 columns. -/
theorem headProduct_apply (v1 : FVec Ideal S256x4 .f32) (h : FVec Ideal S1024x256 .f32) (c : Fin 4) (j : Fin 1024) :
    matmul dot_S256x4_S1024x256_S4x1024_0_1_1_0_n_n none v1 h (constant (F := Ideal) S4x1024 .f32 0x00000000#32) (ix2 c j)
      = ∑ k : Fin 256, v1 (ix2 k c) * h (ix2 j k) := by
  refine (Ideal.matmul_constant_zero_apply dot_S256x4_S1024x256_S4x1024_0_1_1_0_n_n none v1 h (ix2 c j)).trans ?_
  rw [← Equiv.sum_comp (contrEquiv1 dot_S256x4_S1024x256_S4x1024_0_1_1_0_n_n 256 rfl rfl).symm]
  refine Finset.sum_congr rfl fun k _ => ?_
  have hk := contrEquiv1_symm_val dot_S256x4_S1024x256_S4x1024_0_1_1_0_n_n 256 rfl rfl k
  have el : dot_S256x4_S1024x256_S4x1024_0_1_1_0_n_n.lhsIdx (ix2 c j) ((contrEquiv1 dot_S256x4_S1024x256_S4x1024_0_1_1_0_n_n 256 rfl rfl).symm k) = ix2 k c := funext fun a => Fin.ext (by
    match a with
    | ⟨0, _⟩ => exact (lhs_head_0 _ _).trans hk
    | ⟨1, _⟩ => exact lhs_head_1 _ _)
  have er : dot_S256x4_S1024x256_S4x1024_0_1_1_0_n_n.rhsIdx (ix2 c j) ((contrEquiv1 dot_S256x4_S1024x256_S4x1024_0_1_1_0_n_n 256 rfl rfl).symm k) = ix2 j k := funext fun a => Fin.ext (by
    match a with
    | ⟨0, _⟩ => exact rhs_head_0 _ _
    | ⟨1, _⟩ => exact (rhs_head_1 _ _).trans hk)
  rw [el, er]

/-! ## The layout operations, read at coordinates -/

/-- The hidden layer's bias vector, cast to one row and broadcast down the 1024 rows, reads at (r, k) its entry k. -/
theorem biasRow_apply (v2 : Vec Ideal S256 .f32) (r : Fin 1024) (k : Fin 256) :
    broadcastTo S1024x256 (shapeCast S1x256 v2 shapeCasts_S256_S1x256) broadcasts_S1x256_S1024x256 (ix2 r k) = v2 (ix1 k) :=
  (broadcastTo_1b_ab_apply _ broadcasts_S1x256_S1024x256 r k).trans (shapeCast_a_1a_apply v2 shapeCasts_S256_S1x256 0 k)

/-- The head's bias vector, cast to a column and broadcast along the 1024 columns, reads at (c, j) its entry c. -/
theorem biasColumn_apply (v3 : Vec Ideal S4 .f32) (c : Fin 4) (j : Fin 1024) :
    broadcastTo S4x1024 (k0_pay2 v3) broadcasts_S4x1_S4x1024 (ix2 c j) = v3 (ix1 c) := by
  unfold k0_pay2
  refine (broadcastTo_apply _ broadcasts_S4x1_S4x1024 (ix2 c j) (ix2 c (0 : Fin 1)) fun ax => ?_).trans ?_
  · match ax with
    | ⟨0, _⟩ => rfl
    | ⟨1, _⟩ => rfl
  · refine shapeCast_apply v3 shapeCasts_S4_S4x1 (ix2 c (0 : Fin 1)) (ix1 c) ?_
    rw [Shape.rowMajor_val_two, Shape.rowMajor_val_one]
    show c.val = c.val * 1 + 0
    omega

/-- Row p of a matrix of 1024 columns, cut out as a one-row matrix, reads at (0, j) the matrix at (p, j). -/
theorem row_apply {n : ℕ} (p : ℕ) (X : (⟨2, ![n, 1024]⟩ : Shape).Idx → EReal)
    (h : (⟨2, ![n, 1024]⟩ : Shape).Slices ![p, 0] S1x1024) (q : Fin n) (hq : q.val = p) (j : Fin 1024) :
    extractStridedSlice S1x1024 ![p, 0] X h (ix2 (0 : Fin 1) j) = X (ix2 q j) :=
  slice2_axis0_apply p X h (0 : Fin 1) j q (by rw [hq]; rfl)

/-! ## The hidden block and the transposed head -/

/-- The hidden block of a block of rows: tanh of the first product plus the bias row. -/
def hiddenBlock (v0 : FVec Ideal S128x256 .f32) (v2 : FVec Ideal S256 .f32) (xb : FVec Ideal S1024x128 .f32) :
    FVec Ideal S1024x256 .f32 :=
  tanh (addf (matmul dot_S1024x128_S128x256_S1024x256_1_0_0_1_n_n none xb v0 (constant (F := Ideal) S1024x256 .f32 0x00000000#32))
    (broadcastTo S1024x256 (shapeCast S1x256 v2 shapeCasts_S256_S1x256) broadcasts_S1x256_S1024x256))

/-- Entry (r, k) of the hidden block is hidden unit k of row r of the block. -/
theorem hiddenBlock_apply (v0 : FVec Ideal S128x256 .f32) (v2 : FVec Ideal S256 .f32) (xb : FVec Ideal S1024x128 .f32)
    (r : Fin 1024) (k : Fin 256) :
    hiddenBlock v0 v2 xb (ix2 r k)
      = Cert.Spec.hid (fun i => xb (ix2 r i)) (fun i k' => v0 (ix2 i k')) (fun k' => v2 (ix1 k')) k := by
  show Ideal.tanh (matmul dot_S1024x128_S128x256_S1024x256_1_0_0_1_n_n none xb v0 (constant (F := Ideal) S1024x256 .f32 0x00000000#32) (ix2 r k)
      + broadcastTo S1024x256 (shapeCast S1x256 v2 shapeCasts_S256_S1x256) broadcasts_S1x256_S1024x256 (ix2 r k))
    = Ideal.tanh ((∑ i : Fin 128, xb (ix2 r i) * v0 (ix2 i k)) + v2 (ix1 k))
  rw [hiddenProduct_apply, biasRow_apply]

/-- The head of a block of rows as the kernel lays it out, four rows of 1024 columns: the second product plus the head's
    bias as a column. Entry (c, j) is head value c of row j of the block; the kernel's products carry the weight on the
    left, the specification's on the right. -/
theorem head_apply (v0 : FVec Ideal S128x256 .f32) (v1 : FVec Ideal S256x4 .f32) (v2 : FVec Ideal S256 .f32)
    (v3 : FVec Ideal S4 .f32) (xb : FVec Ideal S1024x128 .f32) (j : Fin 1024) (c : Fin 4) :
    k0_pay12 (F := Ideal) v0 v1 v2 (k0_pay2 v3) xb (ix2 c j)
      = Cert.Spec.head (Cert.Spec.hid (fun i => xb (ix2 j i)) (fun i k' => v0 (ix2 i k')) (fun k' => v2 (ix1 k')))
          (fun k' c' => v1 (ix2 k' c')) (fun c' => v3 (ix1 c')) c := by
  show matmul dot_S256x4_S1024x256_S4x1024_0_1_1_0_n_n none v1 (hiddenBlock v0 v2 xb) (constant (F := Ideal) S4x1024 .f32 0x00000000#32) (ix2 c j)
      + broadcastTo S4x1024 (k0_pay2 v3) broadcasts_S4x1_S4x1024 (ix2 c j)
    = (∑ k : Fin 256, Cert.Spec.hid (fun i => xb (ix2 j i)) (fun i k' => v0 (ix2 i k')) (fun k' => v2 (ix1 k')) k * v1 (ix2 k c))
      + v3 (ix1 c)
  rw [headProduct_apply, biasColumn_apply]
  refine congrArg (· + v3 (ix1 c)) (Finset.sum_congr rfl fun k _ => ?_)
  rw [mul_comm, hiddenBlock_apply]

/-! ## One row's arithmetic after the head -/

/-- What the kernel computes, entry by entry, from a row's four head values and its two draws: the softmax mass of the
    first value against the larger of the first two, the guarded softplus of the fourth, the quantile, the choice. -/
def rowTail (z0 z1 z2 z3 u0 u1 : EReal) : EReal :=
  Scalar.select
    (Ideal.cmp .ole u0 (Ideal.div (Ideal.exp (z0 - max z0 z1)) (Ideal.exp (z0 - max z0 z1) + Ideal.exp (z1 - max z0 z1))))
    (Ideal.ofBits .f32 0x00000000#32)
    (Ideal.exp (z2 + Scalar.select
        (Ideal.cmp .one (z3 - Ideal.ofBits .f32 0x00000000#32) (z3 - Ideal.ofBits .f32 0x00000000#32))
        (z3 + Ideal.ofBits .f32 0x00000000#32)
        (max z3 (Ideal.ofBits .f32 0x00000000#32)
          + Ideal.log1p (Ideal.exp (Ideal.ofBits .f32 0x00000000#32
              - max (z3 - Ideal.ofBits .f32 0x00000000#32) (-(z3 - Ideal.ofBits .f32 0x00000000#32)))))
      * (Ideal.log u1 - Ideal.log1p (Ideal.ofBits .f32 0x00000000#32 - u1))))

/-- It is the specification's tail: the zero word is zero, the guard compares a value with itself, and zero minus a
    value is its negation. -/
theorem rowTail_eq (z : Fin 4 → EReal) (u0 u1 : EReal) :
    rowTail (z 0) (z 1) (z 2) (z 3) u0 u1 = Cert.Spec.tail z u0 u1 := by
  unfold rowTail
  simp only [Ideal.ofBits_zero_f32]
  rw [Cert.Spec.guarded_one, Cert.Spec.zero_sub', Cert.Spec.zero_sub']
  rfl

/-- The tail on the four rows of a transposed head block and the two rows of a block of draws, at column j. -/
theorem rows_tail (Z : FVec Ideal S4x1024 .f32) (ub : FVec Ideal S2x1024 .f32) (j : Fin 1024) (z : Fin 4 → EReal)
    (hz : ∀ c : Fin 4, Z (ix2 c j) = z c) :
    rowTail (extractStridedSlice S1x1024 ![0, 0] Z slices_S4x1024_o0_0_S1x1024 (ix2 (0 : Fin 1) j))
        (extractStridedSlice S1x1024 ![1, 0] Z slices_S4x1024_o1_0_S1x1024 (ix2 (0 : Fin 1) j))
        (extractStridedSlice S1x1024 ![2, 0] Z slices_S4x1024_o2_0_S1x1024 (ix2 (0 : Fin 1) j))
        (extractStridedSlice S1x1024 ![3, 0] Z slices_S4x1024_o3_0_S1x1024 (ix2 (0 : Fin 1) j))
        (extractStridedSlice S1x1024 ![0, 0] ub slices_S2x1024_o0_0_S1x1024 (ix2 (0 : Fin 1) j))
        (extractStridedSlice S1x1024 ![1, 0] ub slices_S2x1024_o1_0_S1x1024 (ix2 (0 : Fin 1) j))
      = Cert.Spec.tail z (ub (ix2 (0 : Fin 2) j)) (ub (ix2 (1 : Fin 2) j)) := by
  rw [row_apply 0 Z slices_S4x1024_o0_0_S1x1024 (0 : Fin 4) rfl j, row_apply 1 Z slices_S4x1024_o1_0_S1x1024 (1 : Fin 4) rfl j,
    row_apply 2 Z slices_S4x1024_o2_0_S1x1024 (2 : Fin 4) rfl j, row_apply 3 Z slices_S4x1024_o3_0_S1x1024 (3 : Fin 4) rfl j,
    row_apply 0 ub slices_S2x1024_o0_0_S1x1024 (0 : Fin 2) rfl j, row_apply 1 ub slices_S2x1024_o1_0_S1x1024 (1 : Fin 2) rfl j,
    hz 0, hz 1, hz 2, hz 3]
  exact rowTail_eq z _ _

/-! ## The four stored slices

Each slice's chain of operations is, entry by entry, the row arithmetic above on the four rows of the transposed head
block and the two rows of the draws' block; the four chains differ only in where they are cut. -/

theorem slice0_apply (v0 : Vec Ideal S128x256 .f32) (v1 : Vec Ideal S256x4 .f32) (v2 : Vec Ideal S256 .f32) (v3 : Vec Ideal S4 .f32)
    (xb : Vec Ideal S1024x128 .f32) (ub : Vec Ideal S2x1024 .f32) (j : Fin 1024) :
    slice0 (F := Ideal) v0 v1 v2 v3 xb ub (ix2 (0 : Fin 1) j) = rowOf v0 v1 v2 v3 xb ub j :=
  rows_tail (k0_pay12 (F := Ideal) v0 v1 v2 (k0_pay2 v3) xb) ub j _ (head_apply v0 v1 v2 v3 xb j)

theorem slice1_apply (v0 : Vec Ideal S128x256 .f32) (v1 : Vec Ideal S256x4 .f32) (v2 : Vec Ideal S256 .f32) (v3 : Vec Ideal S4 .f32)
    (xb : Vec Ideal S1024x128 .f32) (ub : Vec Ideal S2x1024 .f32) (j : Fin 1024) :
    slice1 (F := Ideal) v0 v1 v2 v3 xb ub (ix2 (0 : Fin 1) j) = rowOf v0 v1 v2 v3 xb ub j :=
  rows_tail (k0_pay12 (F := Ideal) v0 v1 v2 (k0_pay2 v3) xb) ub j _ (head_apply v0 v1 v2 v3 xb j)

theorem slice2_apply (v0 : Vec Ideal S128x256 .f32) (v1 : Vec Ideal S256x4 .f32) (v2 : Vec Ideal S256 .f32) (v3 : Vec Ideal S4 .f32)
    (xb : Vec Ideal S1024x128 .f32) (ub : Vec Ideal S2x1024 .f32) (j : Fin 1024) :
    slice2 (F := Ideal) v0 v1 v2 v3 xb ub (ix2 (0 : Fin 1) j) = rowOf v0 v1 v2 v3 xb ub j :=
  rows_tail (k0_pay12 (F := Ideal) v0 v1 v2 (k0_pay2 v3) xb) ub j _ (head_apply v0 v1 v2 v3 xb j)

theorem slice3_apply (v0 : Vec Ideal S128x256 .f32) (v1 : Vec Ideal S256x4 .f32) (v2 : Vec Ideal S256 .f32) (v3 : Vec Ideal S4 .f32)
    (xb : Vec Ideal S1024x128 .f32) (ub : Vec Ideal S2x1024 .f32) (j : Fin 1024) :
    slice3 (F := Ideal) v0 v1 v2 v3 xb ub (ix2 (0 : Fin 1) j) = rowOf v0 v1 v2 v3 xb ub j :=
  rows_tail (k0_pay12 (F := Ideal) v0 v1 v2 (k0_pay2 v3) xb) ub j _ (head_apply v0 v1 v2 v3 xb j)

end Cert.KernelIdeal.Hand

end
-- ==== Proof.KI.Final.lean ====
/-
  From blocks to the array, at the ideal instance. Grid point t writes back columns 4096 t .. 4096 t + 4095 of the
  [1, 16384] output array; within that block, slice p holds columns 1024 p .. 1024 p + 1023, computed from rows
  1024 (4 t + p) .. of x and the same columns of the draws. So entry n of the output array is the row function at
  row n of x and column n of the draws, and the four write-backs cover the array. Read through the reshape to
  [16384], the program's result is the specification of the arguments as launched.
-/
import proofs.«151368_g74328704025318_cont_9to1c4b_615_4_alg».proof.Proof.KI.Data
import proofs.«151368_g74328704025318_cont_9to1c4b_615_4_alg».proof.Proof.KI.SliceValue
import proofs.«151368_g74328704025318_cont_9to1c4b_615_4_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! ## One row of the result, over the whole arrays -/

/-- Entry `n` of the result: row `n` of x through the hidden layer and the head, with the two draws of column `n`. -/
def rowAt (X : Vec Ideal S16384x128 .f32) (W1 : Vec Ideal S128x256 .f32) (B1 : Vec Ideal S256 .f32)
    (W2 : Vec Ideal S256x4 .f32) (B2 : Vec Ideal S4 .f32) (U : Vec Ideal S2x16384 .f32) (n : Fin 16384) : EReal :=
  Cert.Spec.rowOut (fun k => X (ix2 n k)) (fun k j => W1 (ix2 k j)) (fun j => B1 (ix1 j))
    (fun j c => W2 (ix2 j c)) (fun c => B2 (ix1 c)) (U (ix2 (0 : Fin 2) n)) (U (ix2 (1 : Fin 2) n))

/-- The row function of a block of 1024 rows and a slice of 1024 columns of the draws, at local row `j`, is the row
    function of the arrays at the row and column `n` that `j` stands for. -/
theorem rowOf_eq_rowAt (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (xb : Vec Ideal S1024x128 .f32) (ub : Vec Ideal S2x1024 .f32) (j : Fin 1024) (n : Fin 16384)
    (hx : ∀ k : Fin 128, xb (ix2 j k) = X (ix2 n k)) (hu : ∀ r : Fin 2, ub (ix2 r j) = U (ix2 r n)) :
    rowOf W1 W2 B1 B2 xb ub j = rowAt X W1 B1 W2 B2 U n := by
  unfold rowAt
  show Cert.Spec.rowOut (fun k => xb (ix2 j k)) _ _ _ _ (ub (ix2 (0 : Fin 2) j)) (ub (ix2 (1 : Fin 2) j)) = _
  rw [funext hx, hu 0, hu 1]

theorem zeros2 : (![0, 0] : Fin 2 → Nat) = fun _ => 0 := funext fun a => by fin_cases a <;> rfl
theorem zeros1 : (![0] : Fin 1 → Nat) = fun _ => 0 := funext fun a => by fin_cases a; rfl

/-- A slice of 1024 columns of the draws' block, starting at column `o`, read at `(r, j)`. -/
theorem ld_cols (u : Vec Ideal S2x4096 .f32) (o : Nat) (inb : ∀ a, (![0, o] : Fin 2 → Nat) a + S2x1024.size a ≤ S2x4096.size a)
    (r : Fin 2) (j : Fin 1024) (q : Fin 4096) (hq : q.val = o + j.val) :
    View.ld u (Rect.unit (s := S2x4096) ![0, o] S2x1024.size inb) (ix2 r j) = u (ix2 r q) := by
  show u ((Rect.unit (s := S2x4096) ![0, o] S2x1024.size inb).idx (ix2 r j)) = u (ix2 r q)
  congr 1
  funext a
  apply Fin.ext
  match a with
  | ⟨0, _⟩ => show 0 + 1 * r.val = r.val; omega
  | ⟨1, _⟩ => show o + 1 * j.val = q.val; omega

/-- Slice 0 of a point's block at local column `j`: from row `j` of row stream 0's block and columns `0 + j` of
    the draws' block, it is the row function of the arrays at the row and column `n` these stand for. -/
theorem piece0_apply (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (xb : Vec Ideal S1024x128 .f32) (u : Vec Ideal S2x4096 .f32) (tv : Nat) (ht : tv < 4)
    (hx : ∀ (j : Fin 1024) (k : Fin 128) (n : Fin 16384), n.val = 1024 * (4 * tv + 0) + j.val → xb (ix2 j k) = X (ix2 n k))
    (hu : ∀ (r : Fin 2) (q : Fin 4096) (n : Fin 16384), n.val = 4096 * tv + q.val → u (ix2 r q) = U (ix2 r n))
    (j : Fin 1024) (n : Fin 16384) (hn : n.val = 4096 * tv + (0 + 1 * j.val)) :
    slice0 (View.ld W1 rW1) (View.ld W2 rW2) (View.ld B1 rB1) (View.ld B2 rB2) (View.ld xb rX) (View.ld u rU0) (ix2 (0 : Fin 1) j)
      = rowAt X W1 B1 W2 B2 U n := by
  have hj : j.val < 1024 := j.isLt
  rw [slice0_apply]
  have e1 : View.ld W1 rW1 = W1 := View.ld_unit_zero zeros2 _ W1
  have e2 : View.ld W2 rW2 = W2 := View.ld_unit_zero zeros2 _ W2
  have e3 : View.ld B1 rB1 = B1 := View.ld_unit_zero zeros1 _ B1
  have e4 : View.ld B2 rB2 = B2 := View.ld_unit_zero zeros1 _ B2
  have e5 : View.ld xb rX = xb := View.ld_unit_zero zeros2 _ xb
  rw [e1, e2, e3, e4, e5]
  exact rowOf_eq_rowAt X W1 B1 W2 B2 U xb (View.ld u rU0) j n (fun k => hx j k n (by omega))
    (fun r => (ld_cols u 0 _ r j ⟨0 + j.val, by omega⟩ rfl).trans (hu r _ n (by show n.val = 4096 * tv + (0 + j.val); omega)))

/-- Slice 1 of a point's block at local column `j`: from row `j` of row stream 1's block and columns `1024 + j` of
    the draws' block, it is the row function of the arrays at the row and column `n` these stand for. -/
theorem piece1_apply (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (xb : Vec Ideal S1024x128 .f32) (u : Vec Ideal S2x4096 .f32) (tv : Nat) (ht : tv < 4)
    (hx : ∀ (j : Fin 1024) (k : Fin 128) (n : Fin 16384), n.val = 1024 * (4 * tv + 1) + j.val → xb (ix2 j k) = X (ix2 n k))
    (hu : ∀ (r : Fin 2) (q : Fin 4096) (n : Fin 16384), n.val = 4096 * tv + q.val → u (ix2 r q) = U (ix2 r n))
    (j : Fin 1024) (n : Fin 16384) (hn : n.val = 4096 * tv + (1024 + 1 * j.val)) :
    slice1 (View.ld W1 rW1) (View.ld W2 rW2) (View.ld B1 rB1) (View.ld B2 rB2) (View.ld xb rX) (View.ld u rU1) (ix2 (0 : Fin 1) j)
      = rowAt X W1 B1 W2 B2 U n := by
  have hj : j.val < 1024 := j.isLt
  rw [slice1_apply]
  have e1 : View.ld W1 rW1 = W1 := View.ld_unit_zero zeros2 _ W1
  have e2 : View.ld W2 rW2 = W2 := View.ld_unit_zero zeros2 _ W2
  have e3 : View.ld B1 rB1 = B1 := View.ld_unit_zero zeros1 _ B1
  have e4 : View.ld B2 rB2 = B2 := View.ld_unit_zero zeros1 _ B2
  have e5 : View.ld xb rX = xb := View.ld_unit_zero zeros2 _ xb
  rw [e1, e2, e3, e4, e5]
  exact rowOf_eq_rowAt X W1 B1 W2 B2 U xb (View.ld u rU1) j n (fun k => hx j k n (by omega))
    (fun r => (ld_cols u 1024 _ r j ⟨1024 + j.val, by omega⟩ rfl).trans (hu r _ n (by show n.val = 4096 * tv + (1024 + j.val); omega)))

/-- Slice 2 of a point's block at local column `j`: from row `j` of row stream 2's block and columns `2048 + j` of
    the draws' block, it is the row function of the arrays at the row and column `n` these stand for. -/
theorem piece2_apply (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (xb : Vec Ideal S1024x128 .f32) (u : Vec Ideal S2x4096 .f32) (tv : Nat) (ht : tv < 4)
    (hx : ∀ (j : Fin 1024) (k : Fin 128) (n : Fin 16384), n.val = 1024 * (4 * tv + 2) + j.val → xb (ix2 j k) = X (ix2 n k))
    (hu : ∀ (r : Fin 2) (q : Fin 4096) (n : Fin 16384), n.val = 4096 * tv + q.val → u (ix2 r q) = U (ix2 r n))
    (j : Fin 1024) (n : Fin 16384) (hn : n.val = 4096 * tv + (2048 + 1 * j.val)) :
    slice2 (View.ld W1 rW1) (View.ld W2 rW2) (View.ld B1 rB1) (View.ld B2 rB2) (View.ld xb rX) (View.ld u rU2) (ix2 (0 : Fin 1) j)
      = rowAt X W1 B1 W2 B2 U n := by
  have hj : j.val < 1024 := j.isLt
  rw [slice2_apply]
  have e1 : View.ld W1 rW1 = W1 := View.ld_unit_zero zeros2 _ W1
  have e2 : View.ld W2 rW2 = W2 := View.ld_unit_zero zeros2 _ W2
  have e3 : View.ld B1 rB1 = B1 := View.ld_unit_zero zeros1 _ B1
  have e4 : View.ld B2 rB2 = B2 := View.ld_unit_zero zeros1 _ B2
  have e5 : View.ld xb rX = xb := View.ld_unit_zero zeros2 _ xb
  rw [e1, e2, e3, e4, e5]
  exact rowOf_eq_rowAt X W1 B1 W2 B2 U xb (View.ld u rU2) j n (fun k => hx j k n (by omega))
    (fun r => (ld_cols u 2048 _ r j ⟨2048 + j.val, by omega⟩ rfl).trans (hu r _ n (by show n.val = 4096 * tv + (2048 + j.val); omega)))

/-- Slice 3 of a point's block at local column `j`: from row `j` of row stream 3's block and columns `3072 + j` of
    the draws' block, it is the row function of the arrays at the row and column `n` these stand for. -/
theorem piece3_apply (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (xb : Vec Ideal S1024x128 .f32) (u : Vec Ideal S2x4096 .f32) (tv : Nat) (ht : tv < 4)
    (hx : ∀ (j : Fin 1024) (k : Fin 128) (n : Fin 16384), n.val = 1024 * (4 * tv + 3) + j.val → xb (ix2 j k) = X (ix2 n k))
    (hu : ∀ (r : Fin 2) (q : Fin 4096) (n : Fin 16384), n.val = 4096 * tv + q.val → u (ix2 r q) = U (ix2 r n))
    (j : Fin 1024) (n : Fin 16384) (hn : n.val = 4096 * tv + (3072 + 1 * j.val)) :
    slice3 (View.ld W1 rW1) (View.ld W2 rW2) (View.ld B1 rB1) (View.ld B2 rB2) (View.ld xb rX) (View.ld u rU3) (ix2 (0 : Fin 1) j)
      = rowAt X W1 B1 W2 B2 U n := by
  have hj : j.val < 1024 := j.isLt
  rw [slice3_apply]
  have e1 : View.ld W1 rW1 = W1 := View.ld_unit_zero zeros2 _ W1
  have e2 : View.ld W2 rW2 = W2 := View.ld_unit_zero zeros2 _ W2
  have e3 : View.ld B1 rB1 = B1 := View.ld_unit_zero zeros1 _ B1
  have e4 : View.ld B2 rB2 = B2 := View.ld_unit_zero zeros1 _ B2
  have e5 : View.ld xb rX = xb := View.ld_unit_zero zeros2 _ xb
  rw [e1, e2, e3, e4, e5]
  exact rowOf_eq_rowAt X W1 B1 W2 B2 U xb (View.ld u rU3) j n (fun k => hx j k n (by omega))
    (fun r => (ld_cols u 3072 _ r j ⟨3072 + j.val, by omega⟩ rfl).trans (hu r _ n (by show n.val = 4096 * tv + (3072 + j.val); omega)))

/-- The output window's buffer after the body at a point whose blocks are: row stream `p` rows `1024 (4 t + p) ..` of x,
    the weights and biases whole, the draws' columns `4096 t ..` — read at column `y 1`, is the row function of the
    arrays at row and column `4096 t + y 1`. -/
theorem out9_apply (X : Vec Ideal S16384x128 .f32) (W1 : Vec Ideal S128x256 .f32) (B1 : Vec Ideal S256 .f32)
    (W2 : Vec Ideal S256x4 .f32) (B2 : Vec Ideal S4 .f32) (U : Vec Ideal S2x16384 .f32)
    (x0 x1 x2 x3 : Vec Ideal S1024x128 .f32) (w1 : Vec Ideal S128x256 .f32) (b1 : Vec Ideal S256 .f32)
    (w2 : Vec Ideal S256x4 .f32) (b2 : Vec Ideal S4 .f32) (u : Vec Ideal S2x4096 .f32) (tv : Nat) (ht : tv < 4)
    (hx0 : ∀ (j : Fin 1024) (k : Fin 128) (n : Fin 16384), n.val = 1024 * (4 * tv + 0) + j.val → x0 (ix2 j k) = X (ix2 n k))
    (hx1 : ∀ (j : Fin 1024) (k : Fin 128) (n : Fin 16384), n.val = 1024 * (4 * tv + 1) + j.val → x1 (ix2 j k) = X (ix2 n k))
    (hx2 : ∀ (j : Fin 1024) (k : Fin 128) (n : Fin 16384), n.val = 1024 * (4 * tv + 2) + j.val → x2 (ix2 j k) = X (ix2 n k))
    (hx3 : ∀ (j : Fin 1024) (k : Fin 128) (n : Fin 16384), n.val = 1024 * (4 * tv + 3) + j.val → x3 (ix2 j k) = X (ix2 n k))
    (hw1 : w1 = W1) (hb1 : b1 = B1) (hw2 : w2 = W2) (hb2 : b2 = B2)
    (hu : ∀ (r : Fin 2) (q : Fin 4096) (n : Fin 16384), n.val = 4096 * tv + q.val → u (ix2 r q) = U (ix2 r n))
    (y : S1x4096.Idx) (n : Fin 16384) (hn : n.val = 4096 * tv + (y 1).val) :
    out9 x0 x1 x2 x3 w1 b1 w2 b2 u y = rowAt X W1 B1 W2 B2 U n := by
  subst hw1 hb1 hw2 hb2
  unfold out9
  refine (View.canon_apply_of_pieces
    (fun y' : S1x4096.Idx => rowAt X w1 b1 w2 b2 U ⟨4096 * tv + (y' 1).val, by have h : (y' 1).val < 4096 := (y' 1).isLt; omega⟩)
    _ ?_ y (cover9 _ _ _ _ y)).trans (congrArg (rowAt X w1 b1 w2 b2 U) (Fin.ext hn.symm))
  intro p hp
  simp only [List.mem_cons, List.mem_singleton, List.not_mem_nil, or_false] at hp
  rcases hp with rfl | rfl | rfl | rfl
  · intro x
    obtain ⟨i, j, rfl⟩ : ∃ (i : Fin 1) (j : Fin 1024), x = ix2 i j := ⟨x 0, x 1, eq_ix2 x⟩
    obtain rfl : i = 0 := Subsingleton.elim _ _
    exact piece3_apply X w1 b1 w2 b2 U x3 u tv ht hx3 hu j _ rfl
  · intro x
    obtain ⟨i, j, rfl⟩ : ∃ (i : Fin 1) (j : Fin 1024), x = ix2 i j := ⟨x 0, x 1, eq_ix2 x⟩
    obtain rfl : i = 0 := Subsingleton.elim _ _
    exact piece2_apply X w1 b1 w2 b2 U x2 u tv ht hx2 hu j _ rfl
  · intro x
    obtain ⟨i, j, rfl⟩ : ∃ (i : Fin 1) (j : Fin 1024), x = ix2 i j := ⟨x 0, x 1, eq_ix2 x⟩
    obtain rfl : i = 0 := Subsingleton.elim _ _
    exact piece1_apply X w1 b1 w2 b2 U x1 u tv ht hx1 hu j _ rfl
  · intro x
    obtain ⟨i, j, rfl⟩ : ∃ (i : Fin 1) (j : Fin 1024), x = ix2 i j := ⟨x 0, x 1, eq_ix2 x⟩
    obtain rfl : i = 0 := Subsingleton.elim _ _
    exact piece0_apply X w1 b1 w2 b2 U x0 u tv ht hx0 hu j _ rfl

/-! ## The arrays the region finds and the blocks of a point, by their literal types -/

abbrev xarr (c : Dev nD) : Vec Ideal S16384x128 .f32 := V m c main_arg0
abbrev w1arr (c : Dev nD) : Vec Ideal S128x256 .f32 := V m c main_arg1
abbrev b1arr (c : Dev nD) : Vec Ideal S256 .f32 := V m c main_arg2
abbrev w2arr (c : Dev nD) : Vec Ideal S256x4 .f32 := V m c main_arg3
abbrev b2arr (c : Dev nD) : Vec Ideal S4 .f32 := V m c main_arg4
abbrev uarr (c : Dev nD) : Vec Ideal S2x16384 .f32 := V m c main_arg5

abbrev xblk0 (c : Dev nD) (t : Fin cfg0.N) : Vec Ideal S1024x128 .f32 := iblk m c 0 t
abbrev xblk1 (c : Dev nD) (t : Fin cfg0.N) : Vec Ideal S1024x128 .f32 := iblk m c 1 t
abbrev xblk2 (c : Dev nD) (t : Fin cfg0.N) : Vec Ideal S1024x128 .f32 := iblk m c 2 t
abbrev xblk3 (c : Dev nD) (t : Fin cfg0.N) : Vec Ideal S1024x128 .f32 := iblk m c 3 t
abbrev w1blk (c : Dev nD) (t : Fin cfg0.N) : Vec Ideal S128x256 .f32 := iblk m c 4 t
abbrev b1blk (c : Dev nD) (t : Fin cfg0.N) : Vec Ideal S256 .f32 := iblk m c 5 t
abbrev w2blk (c : Dev nD) (t : Fin cfg0.N) : Vec Ideal S256x4 .f32 := iblk m c 6 t
abbrev b2blk (c : Dev nD) (t : Fin cfg0.N) : Vec Ideal S4 .f32 := iblk m c 7 t
abbrev ublk (c : Dev nD) (t : Fin cfg0.N) : Vec Ideal S2x4096 .f32 := iblk m c 8 t

/-! ## Where each window's block sits in its array -/

/-- The index maps over the grid: row stream `p` reads block `4 t + p` of x, the weights and biases their one
    block, the draws and the output block `(0, t)`. -/
theorem idx_facts : ∀ t : Fin cfg0.N,
      win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = t.val
    ∧ win0_9.index t (0 : Fin 2) = 0 ∧ win0_9.index t (1 : Fin 2) = t.val :=
  (by decide +kernel : ∀ t : Fin grid0.N, _)

/-- Row stream 0's block at point `t` is rows `1024 (4 t + 0) ..` of x. -/
theorem xblk0_apply (c : Dev nD) (t : Fin cfg0.N) (j : Fin 1024) (k : Fin 128) (n : Fin 16384)
    (hn : n.val = 1024 * (4 * t.val + 0) + j.val) : xblk0 m c t (ix2 j k) = xarr m c (ix2 n k) := by
  obtain ⟨e00, e01, e10, e11, e20, e21, e30, e31, -⟩ := idx_facts t
  unfold xblk0 iblk
  rw [View.read_apply]
  show xarr m c (((cfg0.win 0).blk t).view.emb (ix2 j k)) = _
  refine congrArg (xarr m c) ?_
  funext a
  apply Fin.ext
  match a with
  | ⟨0, _⟩ => show win0_0.index t (0 : Fin 2) * 1024 + 1 * j.val = n.val; omega
  | ⟨1, _⟩ => show win0_0.index t (1 : Fin 2) * 128 + 1 * k.val = k.val; omega

/-- Row stream 1's block at point `t` is rows `1024 (4 t + 1) ..` of x. -/
theorem xblk1_apply (c : Dev nD) (t : Fin cfg0.N) (j : Fin 1024) (k : Fin 128) (n : Fin 16384)
    (hn : n.val = 1024 * (4 * t.val + 1) + j.val) : xblk1 m c t (ix2 j k) = xarr m c (ix2 n k) := by
  obtain ⟨e00, e01, e10, e11, e20, e21, e30, e31, -⟩ := idx_facts t
  unfold xblk1 iblk
  rw [View.read_apply]
  show xarr m c (((cfg0.win 1).blk t).view.emb (ix2 j k)) = _
  refine congrArg (xarr m c) ?_
  funext a
  apply Fin.ext
  match a with
  | ⟨0, _⟩ => show win0_1.index t (0 : Fin 2) * 1024 + 1 * j.val = n.val; omega
  | ⟨1, _⟩ => show win0_1.index t (1 : Fin 2) * 128 + 1 * k.val = k.val; omega

/-- Row stream 2's block at point `t` is rows `1024 (4 t + 2) ..` of x. -/
theorem xblk2_apply (c : Dev nD) (t : Fin cfg0.N) (j : Fin 1024) (k : Fin 128) (n : Fin 16384)
    (hn : n.val = 1024 * (4 * t.val + 2) + j.val) : xblk2 m c t (ix2 j k) = xarr m c (ix2 n k) := by
  obtain ⟨e00, e01, e10, e11, e20, e21, e30, e31, -⟩ := idx_facts t
  unfold xblk2 iblk
  rw [View.read_apply]
  show xarr m c (((cfg0.win 2).blk t).view.emb (ix2 j k)) = _
  refine congrArg (xarr m c) ?_
  funext a
  apply Fin.ext
  match a with
  | ⟨0, _⟩ => show win0_2.index t (0 : Fin 2) * 1024 + 1 * j.val = n.val; omega
  | ⟨1, _⟩ => show win0_2.index t (1 : Fin 2) * 128 + 1 * k.val = k.val; omega

/-- Row stream 3's block at point `t` is rows `1024 (4 t + 3) ..` of x. -/
theorem xblk3_apply (c : Dev nD) (t : Fin cfg0.N) (j : Fin 1024) (k : Fin 128) (n : Fin 16384)
    (hn : n.val = 1024 * (4 * t.val + 3) + j.val) : xblk3 m c t (ix2 j k) = xarr m c (ix2 n k) := by
  obtain ⟨e00, e01, e10, e11, e20, e21, e30, e31, -⟩ := idx_facts t
  unfold xblk3 iblk
  rw [View.read_apply]
  show xarr m c (((cfg0.win 3).blk t).view.emb (ix2 j k)) = _
  refine congrArg (xarr m c) ?_
  funext a
  apply Fin.ext
  match a with
  | ⟨0, _⟩ => show win0_3.index t (0 : Fin 2) * 1024 + 1 * j.val = n.val; omega
  | ⟨1, _⟩ => show win0_3.index t (1 : Fin 2) * 128 + 1 * k.val = k.val; omega

/-- The first weight matrix's block is the matrix. -/
theorem w1blk_eq (c : Dev nD) (t : Fin cfg0.N) : w1blk m c t = w1arr m c := by
  obtain ⟨-, -, -, -, -, -, -, -, e0, e1, -⟩ := idx_facts t
  funext y
  unfold w1blk iblk
  rw [View.read_apply]
  show w1arr m c (((cfg0.win 4).blk t).view.emb y) = _
  refine congrArg (w1arr m c) ?_
  funext a
  apply Fin.ext
  match a with
  | ⟨0, _⟩ => show win0_4.index t (0 : Fin 2) * 128 + 1 * (y 0).val = (y 0).val; omega
  | ⟨1, _⟩ => show win0_4.index t (1 : Fin 2) * 256 + 1 * (y 1).val = (y 1).val; omega

/-- The first bias vector's block is the vector. -/
theorem b1blk_eq (c : Dev nD) (t : Fin cfg0.N) : b1blk m c t = b1arr m c := by
  obtain ⟨-, -, -, -, -, -, -, -, -, -, e0, -⟩ := idx_facts t
  funext y
  unfold b1blk iblk
  rw [View.read_apply]
  show b1arr m c (((cfg0.win 5).blk t).view.emb y) = _
  refine congrArg (b1arr m c) ?_
  funext a
  apply Fin.ext
  match a with
  | ⟨0, _⟩ => show win0_5.index t (0 : Fin 1) * 256 + 1 * (y 0).val = (y 0).val; omega

/-- The second weight matrix's block is the matrix. -/
theorem w2blk_eq (c : Dev nD) (t : Fin cfg0.N) : w2blk m c t = w2arr m c := by
  obtain ⟨-, -, -, -, -, -, -, -, -, -, -, e0, e1, -⟩ := idx_facts t
  funext y
  unfold w2blk iblk
  rw [View.read_apply]
  show w2arr m c (((cfg0.win 6).blk t).view.emb y) = _
  refine congrArg (w2arr m c) ?_
  funext a
  apply Fin.ext
  match a with
  | ⟨0, _⟩ => show win0_6.index t (0 : Fin 2) * 256 + 1 * (y 0).val = (y 0).val; omega
  | ⟨1, _⟩ => show win0_6.index t (1 : Fin 2) * 4 + 1 * (y 1).val = (y 1).val; omega

/-- The second bias vector's block is the vector. -/
theorem b2blk_eq (c : Dev nD) (t : Fin cfg0.N) : b2blk m c t = b2arr m c := by
  obtain ⟨-, -, -, -, -, -, -, -, -, -, -, -, -, e0, -⟩ := idx_facts t
  funext y
  unfold b2blk iblk
  rw [View.read_apply]
  show b2arr m c (((cfg0.win 7).blk t).view.emb y) = _
  refine congrArg (b2arr m c) ?_
  funext a
  apply Fin.ext
  match a with
  | ⟨0, _⟩ => show win0_7.index t (0 : Fin 1) * 4 + 1 * (y 0).val = (y 0).val; omega

/-- The draws' block at point `t` is columns `4096 t ..` of the draws. -/
theorem ublk_apply (c : Dev nD) (t : Fin cfg0.N) (r : Fin 2) (q : Fin 4096) (n : Fin 16384)
    (hn : n.val = 4096 * t.val + q.val) : ublk m c t (ix2 r q) = uarr m c (ix2 r n) := by
  obtain ⟨-, -, -, -, -, -, -, -, -, -, -, -, -, -, e0, e1, -⟩ := idx_facts t
  unfold ublk iblk
  rw [View.read_apply]
  show uarr m c (((cfg0.win 8).blk t).view.emb (ix2 r q)) = _
  refine congrArg (uarr m c) ?_
  funext a
  apply Fin.ext
  match a with
  | ⟨0, _⟩ => show win0_8.index t (0 : Fin 2) * 2 + 1 * r.val = r.val; omega
  | ⟨1, _⟩ => show win0_8.index t (1 : Fin 2) * 4096 + 1 * q.val = n.val; omega

/-! ## What a point writes back, the cover, the array -/

/-- The output array as one function of the arrays: entry `(0, n)` is the row function at row `n` of x and column `n` of
    the draws. -/
def Gout (X : Vec Ideal S16384x128 .f32) (W1 : Vec Ideal S128x256 .f32) (B1 : Vec Ideal S256 .f32)
    (W2 : Vec Ideal S256x4 .f32) (B2 : Vec Ideal S4 .f32) (U : Vec Ideal S2x16384 .f32) : S1x16384.Idx → EReal :=
  fun i => rowAt X W1 B1 W2 B2 U (i 1)

/-- What point `t` writes back is block `(0, t)` of `Gout` of the arrays as the region finds them. -/
theorem flushed_eq (c : Dev nD) (t : Fin cfg0.N) :
    (dats (F := Ideal) m 0 c).flushed 9 t
      = ((cfg0.win 9).blk t).view.read (Elt Ideal)
          (Gout (xarr m c) (w1arr m c) (b1arr m c) (w2arr m c) (b2arr m c) (uarr m c)) := by
  obtain ⟨-, -, -, -, -, -, -, -, -, -, -, -, -, -, -, -, e0, e1⟩ := idx_facts t
  have ht : t.val < 4 := lt_of_lt_of_eq t.isLt N_0
  show (cfg0.win 9).cut (grid0.coords t) ((dats m 0 c).after 9 t) = _
  rw [after9]
  funext y
  rw [View.read_apply]
  show out9 (xblk0 m c t) (xblk1 m c t) (xblk2 m c t) (xblk3 m c t) (w1blk m c t) (b1blk m c t) (w2blk m c t) (b2blk m c t)
        (ublk m c t) ((cfg0.win 9).xinj (grid0.coords t) y)
      = rowAt (xarr m c) (w1arr m c) (b1arr m c) (w2arr m c) (b2arr m c) (uarr m c) ((((cfg0.win 9).blk t).view.emb y) 1)
  refine out9_apply (xarr m c) (w1arr m c) (b1arr m c) (w2arr m c) (b2arr m c) (uarr m c)
    (xblk0 m c t) (xblk1 m c t) (xblk2 m c t) (xblk3 m c t) (w1blk m c t) (b1blk m c t) (w2blk m c t) (b2blk m c t) (ublk m c t)
    t.val ht (xblk0_apply m c t) (xblk1_apply m c t) (xblk2_apply m c t) (xblk3_apply m c t)
    (w1blk_eq m c t) (b1blk_eq m c t) (w2blk_eq m c t) (b2blk_eq m c t) (ublk_apply m c t)
    ((cfg0.win 9).xinj (grid0.coords t) y) ((((cfg0.win 9).blk t).view.emb y) 1) ?_
  show win0_9.index t (1 : Fin 2) * 4096 + 1 * (y 1).val = 4096 * t.val + (y 1).val
  omega

/-- An index of the output array is in point `t`'s block iff each coordinate is in the block's range on its axis. -/
theorem mem_blk (t : Fin cfg0.N) (i : S1x16384.Idx) :
    i ∈ ((cfg0.win 9).blk t).view.set ↔ ∀ a : Fin 2, win0_9.index t a * S1x4096.size a ≤ (i a).val
      ∧ (i a).val < win0_9.index t a * S1x4096.size a + S1x4096.size a := by
  show i ∈ ((View.whole main_v0).slice (win0_9.rect t)).set ↔ _
  rw [View.set_slice_whole, Rect.mem_set_unit]
  exact Iff.rfl

/-- Every column of the output array is in some point's block: column `n` in that of point `n / 4096`. -/
theorem cover (i : S1x16384.Idx) :
    ∃ t : Fin cfg0.N, (cfg0.win 9).flush t = true ∧ i ∈ ((cfg0.win 9).blk t).view.set := by
  have h0 : (i 0).val < 1 := (i 0).isLt
  have h1 : (i 1).val < 16384 := (i 1).isLt
  have hq : (i 1).val / 4096 < grid0.N := lt_of_lt_of_eq (by omega : (i 1).val / 4096 < 4) N_0.symm
  obtain ⟨-, -, -, -, -, -, -, -, -, -, -, -, -, -, -, -, e0, e1⟩ := idx_facts ⟨(i 1).val / 4096, hq⟩
  refine ⟨⟨(i 1).val / 4096, hq⟩, flush0_9 _, ?_⟩
  rw [mem_blk]
  intro a
  match a with
  | ⟨0, _⟩ =>
    show win0_9.index ⟨(i 1).val / 4096, hq⟩ (0 : Fin 2) * 1 ≤ (i 0).val
      ∧ (i 0).val < win0_9.index ⟨(i 1).val / 4096, hq⟩ (0 : Fin 2) * 1 + 1
    omega
  | ⟨1, _⟩ =>
    show win0_9.index ⟨(i 1).val / 4096, hq⟩ (1 : Fin 2) * 4096 ≤ (i 1).val
      ∧ (i 1).val < win0_9.index ⟨(i 1).val / 4096, hq⟩ (1 : Fin 2) * 4096 + 4096
    have e1' : win0_9.index ⟨(i 1).val / 4096, hq⟩ (1 : Fin 2) = (i 1).val / 4096 := e1
    omega

/-- The output array after the last point is `Gout` of the arrays as the region finds them. -/
theorem final (c : Dev nD) :
    (dats (F := Ideal) m 0 c).arrAt 9 cfg0.N
      = Gout (xarr m c) (w1arr m c) (b1arr m c) (w2arr m c) (b2arr m c) (uarr m c) :=
  (dats (F := Ideal) m 0 c).arrAt_eq_of_cover 9
    (Gout (xarr m c) (w1arr m c) (b1arr m c) (w2arr m c) (b2arr m c) (uarr m c))
    (fun t _ => flushed_eq m c t) cover

/-- The reshape of a [1, 16384] array to [16384] reads entry `n` at `(0, n)`. -/
theorem reshape_apply (A : S1x16384.Idx → EReal) (n : Fin 16384) :
    shapeCast S16384 A shapeCasts_S1x16384_S16384 (ix1 n) = A (ix2 (0 : Fin 1) n) :=
  shapeCast_apply A shapeCasts_S1x16384_S16384 (ix1 n) (ix2 (0 : Fin 1) n)
    (by rw [Shape.rowMajor_val_two, Shape.rowMajor_val_one]; show 0 * 16384 + n.val = n.val; omega)

/-- The output array after the last grid point, read as [16384], is the specification of the launch contents. -/
theorem result_value (c : Dev nD) :
    shapeCast S16384 ((dats (F := Ideal) m 0 c).arrAt 9 cfg0.N : FVec Ideal S1x16384 .f32) shapeCasts_S1x16384_S16384
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨n, rfl⟩ : ∃ n : Fin 16384, i = ix1 n := ⟨i 0, eq_ix1 i⟩
  refine (reshape_apply _ n).trans ?_
  rw [final m c]
  rfl

end Cert.KernelIdeal.Hand

end
-- ==== Proof.RefValue.lean ====
/-
  The reference, one operation at a time, is the specification: entry r of its result is the row function at row r of
  x and column r of the draws. The two matrix products are sums over the contracted axis; the softmax's maximum over
  the two logits, taken against minus infinity twice, is their maximum; its denominator, a sum of two terms from
  zero, is their sum; softplus and the final choice are the same guarded terms the specification names.
-/
import proofs.«151368_g74328704025318_cont_9to1c4b_615_4_alg».proof.Proof.Gen.ReferenceIdeal.Read
import proofs.«151368_g74328704025318_cont_9to1c4b_615_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefValue

open Idealize.ShloMosaic Idealize.ShloMosaic.ValueIdx
open Cert.ReferenceIdeal Cert.ReferenceIdeal.Gen

/-! The argument arrays at the extended reals: the rows x, the two weight matrices with their biases, the draws. -/

abbrev X0 := (⟨S16384x128, .f32⟩ : BufTy).Contents (Elt Ideal)
abbrev X1 := (⟨S128x256, .f32⟩ : BufTy).Contents (Elt Ideal)
abbrev X2 := (⟨S256, .f32⟩ : BufTy).Contents (Elt Ideal)
abbrev X3 := (⟨S256x4, .f32⟩ : BufTy).Contents (Elt Ideal)
abbrev X4 := (⟨S4, .f32⟩ : BufTy).Contents (Elt Ideal)
abbrev X5 := (⟨S2x16384, .f32⟩ : BufTy).Contents (Elt Ideal)

/-! ## The two layers -/

/-- Hidden unit j of row r. -/
theorem hid_at (x0 : X0) (x1 : X1) (x2 : X2) (r : Fin 16384) (j : Fin 256) :
    Read.val_main_v4 (F := Ideal) x0 x1 x2 (ix2 r j)
      = Cert.Spec.hid (fun k => x0 (ix2 r k)) (fun k j => x1 (ix2 k j)) (fun j => x2 (ix1 j)) j := by
  rw [Read.val_main_v4_apply, Read.val_main_v3_apply, Read.val_main_v0_apply, Read.val_main_v2_apply, Read.val_main_v1_apply]
  have el : ∀ k : Fin 128, Read.lidx_main_v0 (ix2 r j) k = ix2 r k := fun k =>
    funext fun a => Fin.ext (by match a with | ⟨0, _⟩ => rfl | ⟨1, _⟩ => rfl)
  have er : ∀ k : Fin 128, Read.ridx_main_v0 (ix2 r j) k = ix2 k j := fun k =>
    funext fun a => Fin.ext (by match a with | ⟨0, _⟩ => rfl | ⟨1, _⟩ => rfl)
  have eb : Read.idx_main_v1 (Read.idx_main_v2 (ix2 r j)) = ix1 j :=
    funext fun a => Fin.ext (by match a with | ⟨0, _⟩ => rfl)
  simp only [el, er, eb, Ideal.hostUnary_tanh_def, Ideal.addf_def]
  rfl

/-- The four head values of row r. -/
def headRow (x0 : X0) (x1 : X1) (x2 : X2) (x3 : X3) (x4 : X4) (r : Fin 16384) : Fin 4 → EReal :=
  Cert.Spec.head (Cert.Spec.hid (fun k => x0 (ix2 r k)) (fun k j => x1 (ix2 k j)) (fun j => x2 (ix1 j)))
    (fun j c => x3 (ix2 j c)) (fun c => x4 (ix1 c))

/-- Head value c of row r. -/
theorem head_at (x0 : X0) (x1 : X1) (x2 : X2) (x3 : X3) (x4 : X4) (r : Fin 16384) (c : Fin 4) :
    Read.val_main_v8 (F := Ideal) x0 x1 x2 x3 x4 (ix2 r c) = headRow x0 x1 x2 x3 x4 r c := by
  rw [Read.val_main_v8_apply, Read.val_main_v5_apply, Read.val_main_v7_apply, Read.val_main_v6_apply]
  have el : ∀ k : Fin 256, Read.lidx_main_v5 (ix2 r c) k = ix2 r k := fun k =>
    funext fun a => Fin.ext (by match a with | ⟨0, _⟩ => rfl | ⟨1, _⟩ => rfl)
  have er : ∀ k : Fin 256, Read.ridx_main_v5 (ix2 r c) k = ix2 k c := fun k =>
    funext fun a => Fin.ext (by match a with | ⟨0, _⟩ => rfl | ⟨1, _⟩ => rfl)
  have eb : Read.idx_main_v6 (Read.idx_main_v7 (ix2 r c)) = ix1 c :=
    funext fun a => Fin.ext (by match a with | ⟨0, _⟩ => rfl)
  simp only [el, er, eb, hid_at, Ideal.addf_def]
  rfl

/-! ## The slices of the head -/

/-- The two logits. -/
theorem logit_at (x0 : X0) (x1 : X1) (x2 : X2) (x3 : X3) (x4 : X4) (r : Fin 16384) (c : Fin 2) :
    Read.val_main_v9 (F := Ideal) x0 x1 x2 x3 x4 (ix2 r c) = headRow x0 x1 x2 x3 x4 r (Fin.castLE (by decide) c) := by
  rw [Read.val_main_v9_apply, ← head_at]
  exact congrArg _ (funext fun a => Fin.ext (by match a with | ⟨0, _⟩ => rfl | ⟨1, _⟩ => rfl))

/-- The location and the raw scale. -/
theorem tailpair_at (x0 : X0) (x1 : X1) (x2 : X2) (x3 : X3) (x4 : X4) (r : Fin 16384) (c : Fin 2) :
    Read.val_main_v10 (F := Ideal) x0 x1 x2 x3 x4 (ix2 r c) = headRow x0 x1 x2 x3 x4 r (Fin.natAdd 2 c) := by
  rw [Read.val_main_v10_apply, ← head_at]
  exact congrArg _ (funext fun a => Fin.ext (by match a with | ⟨0, _⟩ => rfl | ⟨1, _⟩ => rfl))

/-- The location: the third head value. -/
theorem mu_at (x0 : X0) (x1 : X1) (x2 : X2) (x3 : X3) (x4 : X4) (r : Fin 16384) :
    Read.val_main_v30 (F := Ideal) x0 x1 x2 x3 x4 (ix1 r) = headRow x0 x1 x2 x3 x4 r 2 := by
  rw [Read.val_main_v30_apply, Read.val_main_v29_apply]
  have e : Read.idx_main_v29 (Read.idx_main_v30 (ix1 r)) = ix2 r (0 : Fin 2) :=
    funext fun a => Fin.ext (by match a with | ⟨0, _⟩ => exact Nat.div_one _ | ⟨1, _⟩ => rfl)
  rw [e, tailpair_at]
  rfl

/-- The raw scale: the fourth head value. -/
theorem sraw_at (x0 : X0) (x1 : X1) (x2 : X2) (x3 : X3) (x4 : X4) (r : Fin 16384) :
    Read.val_main_v32 (F := Ideal) x0 x1 x2 x3 x4 (ix1 r) = headRow x0 x1 x2 x3 x4 r 3 := by
  rw [Read.val_main_v32_apply, Read.val_main_v31_apply]
  have e : Read.idx_main_v31 (Read.idx_main_v32 (ix1 r)) = ix2 r (1 : Fin 2) :=
    funext fun a => Fin.ext (by match a with | ⟨0, _⟩ => exact Nat.div_one _ | ⟨1, _⟩ => rfl)
  rw [e, tailpair_at]
  rfl

/-! ## The softmax head -/

/-- Minus infinity's word is the least extended real: the maximum with it is the other operand. -/
theorem max_negInf (y : EReal) : max (Ideal.ofBits .f32 0xFF800000#32) y = y := by
  simp [Ideal.ofBits, Ideal.ieee]

/-- Row r's index with column k put back on the reduced axis. -/
theorem lift_row (h : S16384x2.Reduces [1] S16384) (r : Fin 16384) (k : Fin (S16384x2.size 1)) :
    h.lift (ix1 r) k = ix2 r (⟨k.val, k.isLt⟩ : Fin 2) := by
  funext c; apply Fin.ext
  match c with
  | ⟨0, _⟩ => rfl
  | ⟨1, _⟩ => rfl

/-- A maximum from minus infinity over a row's two entries is their maximum. -/
theorem rowMax (y : S16384x2.Idx → EReal) (r : Fin 16384) :
    Host.reduce (α := EReal) (s := S16384x2) (t := S16384) (u := S_) (FloatOps.maximumf (F := Ideal) (φ := .f32)) y
        (Read.val_main_cst (F := Ideal)) reducesTo_S16384x2_S16384_d1 h_S_ (ix1 r)
      = max (y (ix2 r 0)) (y (ix2 r 1)) := by
  have h : S16384x2.Reduces [1] S16384 := by decide
  rw [Host.reduce_eq_fold_single (FloatOps.maximumf (F := Ideal) (φ := .f32)) y _ reducesTo_S16384x2_S16384_d1 h h_S_]
  have hf : (y ∘ h.lift (ix1 r)) = fun k : Fin 2 => y (ix2 r k) := funext fun k => congrArg y (lift_row h r k)
  refine Eq.trans (congrArg (fun f => Finset.fold (FloatOps.maximumf (F := Ideal) (φ := .f32)) _ f (Finset.univ : Finset (Fin 2))) hf) ?_
  simp only [Fin.univ_succ, Finset.fold_cons, Finset.fold_map, Finset.univ_unique, Finset.fold_singleton]
  show max (y (ix2 r 0)) (max (y (ix2 r 1)) (Ideal.ofBits .f32 0xFF800000#32)) = _
  rw [max_comm (y (ix2 r 1)), max_negInf]

/-- The maximum of row r's two logits. -/
theorem max_at (x0 : X0) (x1 : X1) (x2 : X2) (x3 : X3) (x4 : X4) (r : Fin 16384) :
    Read.val_main_v13 (F := Ideal) x0 x1 x2 x3 x4 (ix1 r) = max (headRow x0 x1 x2 x3 x4 r 0) (headRow x0 x1 x2 x3 x4 r 1) := by
  rw [Read.val_main_v13_apply, Read.val_main_v12_apply, Read.val_main_cst_0_apply]
  unfold Read.val_main_v11
  rw [rowMax, logit_at, logit_at]
  simp only [Ideal.maximumf_def, Ideal.ofBits_def, max_negInf]
  rfl

/-- The exponential of a logit against the maximum. -/
theorem exp_at (x0 : X0) (x1 : X1) (x2 : X2) (x3 : X3) (x4 : X4) (r : Fin 16384) (c : Fin 2) :
    Read.val_main_v17 (F := Ideal) x0 x1 x2 x3 x4 (ix2 r c)
      = Ideal.exp (headRow x0 x1 x2 x3 x4 r (Fin.castLE (by decide) c) - max (headRow x0 x1 x2 x3 x4 r 0) (headRow x0 x1 x2 x3 x4 r 1)) := by
  rw [Read.val_main_v17_apply, Read.val_main_v16_apply, Read.val_main_v15_apply, Read.val_main_v14_apply, logit_at]
  have e : Read.idx_main_v14 (Read.idx_main_v15 (ix2 r c)) = ix1 r :=
    funext fun a => Fin.ext (by match a with | ⟨0, _⟩ => rfl)
  rw [e, max_at]
  simp only [Ideal.hostUnary_exp_def, Ideal.subf_def]

/-- The softmax's denominator: the two exponentials, summed from zero. -/
theorem den_at (x0 : X0) (x1 : X1) (x2 : X2) (x3 : X3) (x4 : X4) (r : Fin 16384) :
    Read.val_main_v18 (F := Ideal) x0 x1 x2 x3 x4 (ix1 r)
      = Ideal.exp (headRow x0 x1 x2 x3 x4 r 0 - max (headRow x0 x1 x2 x3 x4 r 0) (headRow x0 x1 x2 x3 x4 r 1))
        + Ideal.exp (headRow x0 x1 x2 x3 x4 r 1 - max (headRow x0 x1 x2 x3 x4 r 0) (headRow x0 x1 x2 x3 x4 r 1)) := by
  rw [Read.val_main_v18_apply, Read.val_main_cst_1_apply, Fin.sum_univ_two]
  have e : ∀ k : Fin 2, Read.idx_main_v18 (ix1 r) k = ix2 r k := fun k =>
    funext fun a => Fin.ext (by match a with | ⟨0, _⟩ => rfl | ⟨1, _⟩ => rfl)
  rw [e, e, exp_at, exp_at]
  simp only [Ideal.ofBits_def, Ideal.ofBits_zero_f32, zero_add]
  rfl

/-- The mass of the first logit. -/
theorem mass_at (x0 : X0) (x1 : X1) (x2 : X2) (x3 : X3) (x4 : X4) (r : Fin 16384) :
    Read.val_main_v23 (F := Ideal) x0 x1 x2 x3 x4 (ix1 r)
      = Cert.Spec.mass (headRow x0 x1 x2 x3 x4 r 0) (headRow x0 x1 x2 x3 x4 r 1) := by
  rw [Read.val_main_v23_apply, Read.val_main_v22_apply, Read.val_main_v21_apply, Read.val_main_v20_apply, Read.val_main_v19_apply]
  have e1 : Read.idx_main_v22 (Read.idx_main_v23 (ix1 r)) = ix2 r (0 : Fin 2) :=
    funext fun a => Fin.ext (by match a with | ⟨0, _⟩ => exact Nat.div_one _ | ⟨1, _⟩ => rfl)
  rw [e1]
  have e2 : Read.idx_main_v19 (Read.idx_main_v20 (ix2 r (0 : Fin 2))) = ix1 r :=
    funext fun a => Fin.ext (by match a with | ⟨0, _⟩ => rfl)
  rw [e2, exp_at, den_at]
  simp only [Ideal.hostDivf_def]
  rfl

/-! ## The draws -/

/-- The first draw of row r. -/
theorem rain_at (x5 : X5) (r : Fin 16384) : Read.val_main_v25 (F := Ideal) x5 (ix1 r) = x5 (ix2 (0 : Fin 2) r) := by
  rw [Read.val_main_v25_apply, Read.val_main_v24_apply]
  exact congrArg x5 (funext fun a => Fin.ext (by
    match a with
    | ⟨0, _⟩ => rfl
    | ⟨1, _⟩ => exact Nat.mod_eq_of_lt r.isLt))

/-- The second draw of row r. -/
theorem dist_at (x5 : X5) (r : Fin 16384) : Read.val_main_v27 (F := Ideal) x5 (ix1 r) = x5 (ix2 (1 : Fin 2) r) := by
  rw [Read.val_main_v27_apply, Read.val_main_v26_apply]
  exact congrArg x5 (funext fun a => Fin.ext (by
    match a with
    | ⟨0, _⟩ => rfl
    | ⟨1, _⟩ => exact Nat.mod_eq_of_lt r.isLt))

/-! ## Softplus and the quantile -/

/-- The guarded softplus of the raw scale. -/
theorem softplus_at (x0 : X0) (x1 : X1) (x2 : X2) (x3 : X3) (x4 : X4) (r : Fin 16384) :
    Read.val_main_v33 (F := Ideal) x0 x1 x2 x3 x4 (ix1 r) = Cert.Spec.softplus (headRow x0 x1 x2 x3 x4 r 3) := by
  rw [Read.val_main_v33_apply, Read.val_main_call0_v4_apply, Read.val_main_call0_v6_apply, Read.val_main_call0_v11_apply,
    Read.val_main_call0_v1_apply, Read.val_main_call0_v10_apply, Read.val_main_call0_v9_apply, Read.val_main_call0_v8_apply,
    Read.val_main_call0_v7_apply, Read.val_main_call0_v3_apply, sraw_at]
  simp only [Read.val_main_call0_v0_apply, Read.val_main_call0_v2_apply, Read.val_main_call0_v5_apply,
    Read.val_main_call0_cst_apply, Ideal.ofBits_def, Ideal.ofBits_zero_f32, Ideal.subf_def, Ideal.addf_def,
    Ideal.maximumf_def, Ideal.hostUnary_log1p_def, Ideal.hostUnary_exp_def, Ideal.hostNegf_def, Ideal.negf_def,
    Ideal.hostAbsf_def]
  refine (Cert.Spec.guarded_une _ _ _).trans ?_
  rfl

/-- The logit of the second draw. -/
theorem drawLogit_at (x5 : X5) (r : Fin 16384) :
    Read.val_main_v37 (F := Ideal) x5 (ix1 r)
      = Ideal.log (x5 (ix2 (1 : Fin 2) r)) - Ideal.log1p (-(x5 (ix2 (1 : Fin 2) r))) := by
  rw [Read.val_main_v37_apply, Read.val_main_v34_apply, Read.val_main_v36_apply, Read.val_main_v35_apply, dist_at]
  simp only [Ideal.subf_def, Ideal.hostUnary_log_def, Ideal.hostUnary_log1p_def, Ideal.hostNegf_def, Ideal.negf_def]

/-- The quantile of row r. -/
theorem quantile_at (x0 : X0) (x1 : X1) (x2 : X2) (x3 : X3) (x4 : X4) (x5 : X5) (r : Fin 16384) :
    Read.val_main_v40 (F := Ideal) x0 x1 x2 x3 x4 x5 (ix1 r)
      = Cert.Spec.quantile (headRow x0 x1 x2 x3 x4 r 2) (headRow x0 x1 x2 x3 x4 r 3) (x5 (ix2 (1 : Fin 2) r)) := by
  rw [Read.val_main_v40_apply, Read.val_main_v39_apply, Read.val_main_v38_apply, mu_at, softplus_at, drawLogit_at]
  simp only [Ideal.hostUnary_exp_def, Ideal.addf_def, Ideal.mulf_def]
  rfl

/-- The reference's last stage, at the ideal instance, is the specification of its arguments. -/
theorem ref_eq (x0 : (⟨S16384x128, .f32⟩ : BufTy).Contents (Elt Ideal)) (x1 : (⟨S128x256, .f32⟩ : BufTy).Contents (Elt Ideal))
    (x2 : (⟨S256, .f32⟩ : BufTy).Contents (Elt Ideal)) (x3 : (⟨S256x4, .f32⟩ : BufTy).Contents (Elt Ideal))
    (x4 : (⟨S4, .f32⟩ : BufTy).Contents (Elt Ideal)) (x5 : (⟨S2x16384, .f32⟩ : BufTy).Contents (Elt Ideal)) :
    Cert.ReferenceIdeal.Read.val_main_v42 (F := Ideal) x0 x1 x2 x3 x4 x5 = Cert.Spec.G x0 x1 x2 x3 x4 x5 := by
  funext i
  obtain ⟨r, rfl⟩ : ∃ r : Fin 16384, i = ix1 r := ⟨i 0, eq_ix1 i⟩
  rw [Read.val_main_v42_apply, Read.val_main_v28_apply, Read.val_main_v41_apply, Read.val_main_cst_2_apply, rain_at, mass_at,
    quantile_at]
  simp only [Ideal.ofBits_def, Ideal.ofBits_zero_f32]
  rfl

end Cert.ReferenceIdeal.RefValue

end
-- ==== Proof.K.Data.lean ====
/-
  The one pallas_call of this program reads the row array x through FOUR windows (row stream p of grid point i is the
  block of 1024 rows number 4 i + p), the two weight matrices and the two bias vectors whole, and the two uniform draws
  by blocks of 4096 columns; it writes one block of 4096 results per grid point, in four slices of 1024, slice p from
  row stream p. This module fixes, for any float instance: the contents the region finds, each window's block at a
  point, the four stored slices as terms over the blocks, the output buffer after the body as the canon of the four
  stores, and the pipeline's proof data. The four windows on x hold a quarter share of it each.
-/
import proofs.«151368_g74328704025318_cont_9to1c4b_615_4_alg».proof.Proof.Gen.Kernel.Launch
import proofs.«151368_g74328704025318_cont_9to1c4b_615_4_alg».proof.Proof.Gen.Kernel.Skeleton
import proofs.«151368_g74328704025318_cont_9to1c4b_615_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s TensorCore buffers when the region is entered: as launched (the region is the first item of @main). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S1024x128 := Rect.unit (s := S1024x128) ![0, 0] S1024x128.size inb_S1024x128_S1024x128_0_0
abbrev rW1 : Rect S128x256 := Rect.unit (s := S128x256) ![0, 0] S128x256.size inb_S128x256_S128x256_0_0
abbrev rB1 : Rect S256 := Rect.unit (s := S256) ![0] S256.size inb_S256_S256_0
abbrev rW2 : Rect S256x4 := Rect.unit (s := S256x4) ![0, 0] S256x4.size inb_S256x4_S256x4_0_0
abbrev rB2 : Rect S4 := Rect.unit (s := S4) ![0] S4.size inb_S4_S4_0
abbrev rU0 : Rect S2x4096 := Rect.unit (s := S2x4096) ![0, 0] S2x1024.size inb_S2x4096_S2x1024_0_0
abbrev rU1 : Rect S2x4096 := Rect.unit (s := S2x4096) ![0, 1024] S2x1024.size inb_S2x4096_S2x1024_0_1024
abbrev rU2 : Rect S2x4096 := Rect.unit (s := S2x4096) ![0, 2048] S2x1024.size inb_S2x4096_S2x1024_0_2048
abbrev rU3 : Rect S2x4096 := Rect.unit (s := S2x4096) ![0, 3072] S2x1024.size inb_S2x4096_S2x1024_0_3072
abbrev rO0 : Rect S1x4096 := Rect.unit (s := S1x4096) ![0, 0] S1x1024.size inb_S1x4096_S1x1024_0_0
abbrev rO1 : Rect S1x4096 := Rect.unit (s := S1x4096) ![0, 1024] S1x1024.size inb_S1x4096_S1x1024_0_1024
abbrev rO2 : Rect S1x4096 := Rect.unit (s := S1x4096) ![0, 2048] S1x1024.size inb_S1x4096_S1x1024_0_2048
abbrev rO3 : Rect S1x4096 := Rect.unit (s := S1x4096) ![0, 3072] S1x1024.size inb_S1x4096_S1x1024_0_3072

/-! ## The four stored slices, over the loaded values -/

/-- Slice 0: from row stream 0 (`v5`) and columns 0..1023 of the draws' block (`v14`). -/
def slice0 (v0 : Vec F S128x256 .f32) (v1 : Vec F S256x4 .f32) (v2 : Vec F S256 .f32) (v3 : Vec F S4 .f32)
    (v5 : Vec F S1024x128 .f32) (v14 : Vec F S2x1024 .f32) : FVec F S1x1024 .f32 :=
  k0_pay11 (k0_pay4 v0 v1 v2 v3 v5) (k0_pay5 v0 v1 v2 v3 v5) (k0_pay6 v0 v1 v2 v3 v5) (k0_pay7 v14) (k0_pay8 v14) (k0_pay9 v14) (k0_pay10 (F := F))

/-- Slice 1: from row stream 1 (`v54`) and columns 1024..2047 of the draws' block (`v63`). -/
def slice1 (v0 : Vec F S128x256 .f32) (v1 : Vec F S256x4 .f32) (v2 : Vec F S256 .f32) (v3 : Vec F S4 .f32)
    (v54 : Vec F S1024x128 .f32) (v63 : Vec F S2x1024 .f32) : FVec F S1x1024 .f32 :=
  k0_pay19 (k0_pay13 v0 v1 v2 (k0_pay2 v3) v54) (k0_pay14 v0 v1 v2 (k0_pay2 v3) v54) (k0_pay15 v0 v1 v2 (k0_pay2 v3) v54) (k0_pay16 v63) (k0_pay17 v63) (k0_pay18 v63)

/-- Slice 2: from row stream 2 (`v103`) and columns 2048..3071 of the draws' block (`v112`). -/
def slice2 (v0 : Vec F S128x256 .f32) (v1 : Vec F S256x4 .f32) (v2 : Vec F S256 .f32) (v3 : Vec F S4 .f32)
    (v103 : Vec F S1024x128 .f32) (v112 : Vec F S2x1024 .f32) : FVec F S1x1024 .f32 :=
  k0_pay25 v112 (k0_pay21 v0 v1 v2 (k0_pay2 v3) v103) (k0_pay22 v0 v1 v2 (k0_pay2 v3) v103) (k0_pay23 v0 v1 v2 (k0_pay2 v3) v103) (k0_pay24 v112)

/-- Slice 3: from row stream 3 (`v152`) and columns 3072..4095 of the draws' block (`v161`). -/
def slice3 (v0 : Vec F S128x256 .f32) (v1 : Vec F S256x4 .f32) (v2 : Vec F S256 .f32) (v3 : Vec F S4 .f32)
    (v152 : Vec F S1024x128 .f32) (v161 : Vec F S2x1024 .f32) : FVec F S1x1024 .f32 :=
  k0_pay1 v161 (k0_pay27 v0 v1 v2 (k0_pay2 v3) v152) (k0_pay29 v0 v1 v2 (k0_pay2 v3) v152) (k0_pay31 v0 v1 v2 (k0_pay2 v3) v152)
    (k0_pay32 v0 v1 v2 (k0_pay2 v3) v152) (k0_pay33 v0 v1 v2 (k0_pay2 v3) v152)

/-! ## What the body leaves in the output window's buffer -/

/-- The output window's staging buffer after the body, from the input windows' blocks: its four stores as pieces,
    LAST FIRST. -/
def out9 (x0 x1 x2 x3 : Vec F S1024x128 .f32) (w1 : Vec F S128x256 .f32) (b1 : Vec F S256 .f32) (w2 : Vec F S256x4 .f32)
    (b2 : Vec F S4 .f32) (u : Vec F S2x4096 .f32) : Vec F S1x4096 .f32 :=
  View.canon
    [⟨rO3, slice3 (View.ld w1 rW1) (View.ld w2 rW2) (View.ld b1 rB1) (View.ld b2 rB2) (View.ld x3 rX) (View.ld u rU3)⟩,
     ⟨rO2, slice2 (View.ld w1 rW1) (View.ld w2 rW2) (View.ld b1 rB1) (View.ld b2 rB2) (View.ld x2 rX) (View.ld u rU2)⟩,
     ⟨rO1, slice1 (View.ld w1 rW1) (View.ld w2 rW2) (View.ld b1 rB1) (View.ld b2 rB2) (View.ld x1 rX) (View.ld u rU1)⟩,
     ⟨rO0, slice0 (View.ld w1 rW1) (View.ld w2 rW2) (View.ld b1 rB1) (View.ld b2 rB2) (View.ld x0 rX) (View.ld u rU0)⟩]

/-- The four slices tile the buffer, so they cover it. -/
theorem cover9 (p3 p2 p1 p0 : Vec F S1x1024 .f32) (y : S1x4096.Idx) :
    ∃ pc ∈ ([⟨rO3, p3⟩, ⟨rO2, p2⟩, ⟨rO1, p1⟩, ⟨rO0, p0⟩] : List (View.Piece (Elt F) S1x4096 .f32)), y ∈ pc.1.set :=
  View.cover_of_tiled [⟨rO3, p3⟩, ⟨rO2, p2⟩, ⟨rO1, p1⟩, ⟨rO0, p0⟩] S1x1024.size (by rfl) y

/-! ## The pipeline's proof data -/

/-- The proof data of the one pipeline on core `c`: the arrays as the region finds them; after the body at point `t`
    each input's buffer at its block and the output's at `out9` of the input blocks; the invariant the scoped rest and
    the generator register, untouched; nothing owed; the four windows on x a quarter share each, every other input
    the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = out9 (iblk m c 0 t) (iblk m c 1 t) (iblk m c 2 t) (iblk m c 3 t) (iblk m c 4 t) (iblk m c 5 t) (iblk m c 6 t) (iblk m c 7 t) (iblk m c 8 t) := by
  dsimp only [dats]

theorem owed_eq (c : Dev nD) (t : Fin (cfg0.N + 1)) : (dats m 0 c).owed t = 0 := rfl

end Cert.Kernel.Hand

end
-- ==== Proof.K.Body.lean ====
/-
  The kernel body at one grid point. Holding the nine input windows' staging buffers at their blocks and the output
  window's at anything, the body loads the weights, the biases, the four row blocks and four slices of the draws'
  block, reads each output slice once before it overwrites it (the value read is not used), and stores the four
  slices; it ends with the inputs as they were and the output buffer at the canon of the four stores. From this the
  pipeline's body obligation at every point: an input window's current buffer holds its block whether the point
  fetched it or not (the weights and biases are fetched at the first point only and their block index never moves).
-/
import proofs.«151368_g74328704025318_cont_9to1c4b_615_4_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers hold their blocks

An input window's current staging buffer holds, at every point, the block a fetch there would bring: at a point that
fetches it, because it was just fetched; at a point that does not (the weights and biases after the first point), because
the block index has not moved since the last fetch and the body leaves the buffer as it found it. No window here is cut
or idle, so what a fetch brings is the block itself. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
      (fun t => by rw [after8]; unfold Dat.blockOf iblk; rw [A_eq]; try rfl) t d).trans
    (by unfold Dat.fetched Dat.blockOf iblk; rw [A_eq]; try rfl)

/-! ## The body's triple -/

set_option maxHeartbeats 4000000 in
/-- The body on whole staging buffers: the four row blocks at `x0 … x3`, the weights and biases at `w1 b1 w2 b2`, the
    draws' block at `u`, the output buffer at anything. It reads each input through its literal rectangle and writes the
    output buffer's four quarters in turn, each after one read of that quarter whose value goes nowhere. The inputs
    come back as they were. The four stores tile the output buffer, so whatever it held is gone and it reads as the
    canon of the four pieces, last store first: `out9` of the inputs' contents. -/
theorem sound_kernel (c : Dev nD) (E : Set ℕ) (i : grid0.Coords)
    (a1 : Memref sig .tc .vmem S1024x128 .f32) (h1 : a1.IsWhole) (a2 : Memref sig .tc .vmem S1024x128 .f32) (h2 : a2.IsWhole)
    (a3 : Memref sig .tc .vmem S1024x128 .f32) (h3 : a3.IsWhole) (a4 : Memref sig .tc .vmem S1024x128 .f32) (h4 : a4.IsWhole)
    (a5 : Memref sig .tc .vmem S128x256 .f32) (h5 : a5.IsWhole) (a6 : Memref sig .tc .vmem S256 .f32) (h6 : a6.IsWhole)
    (a7 : Memref sig .tc .vmem S256x4 .f32) (h7 : a7.IsWhole) (a8 : Memref sig .tc .vmem S4 .f32) (h8 : a8.IsWhole)
    (a9 : Memref sig .tc .vmem S2x4096 .f32) (h9 : a9.IsWhole) (a10 : Memref sig .tc .vmem S1x4096 .f32) (h10 : a10.IsWhole)
    (x0 x1 x2 x3 : Vec F S1024x128 .f32) (w1 : Vec F S128x256 .f32) (b1 : Vec F S256 .f32) (w2 : Vec F S256x4 .f32)
    (b2 : Vec F S4 .f32) (u : Vec F S2x4096 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare w1 ∗ owns (c : Thread nD τ) a6 fullShare b1
        ∗ owns (c : Thread nD τ) a7 fullShare w2 ∗ owns (c : Thread nD τ) a8 fullShare b2
        ∗ owns (c : Thread nD τ) a9 fullShare u ∗ (∃ d, owns (c : Thread nD τ) a10 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare w1 ∗ owns (c : Thread nD τ) a6 fullShare b1
            ∗ owns (c : Thread nD τ) a7 fullShare w2 ∗ owns (c : Thread nD τ) a8 fullShare b2
            ∗ owns (c : Thread nD τ) a9 fullShare u
            ∗ owns (c : Thread nD τ) a10 fullShare (out9 x0 x1 x2 x3 w1 b1 w2 b2 u)) -∗ K ⟨⟩))
      ⊢ wp frame (wpE (defs₀ (F := F)) Variants.none c none) E
          (cc0__body i a1 h1 a2 h2 a3 h3 a4 h4 a5 h5 a6 h6 a7 h7 a8 h8 a9 h9 a10 h10) K := by
  sl_unfold [cc0__body]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%d, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _ _ _ _)

/-! ## The body obligation, at a generic point -/

/-- What the body is called with at point `t`: the invariant, what the core owes, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: the same at the next point, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. Each input's buffer holds its block, so the body's triple applies at the blocks; the
    invariant and what the core owes are the same before and after a point and pass through unread; the output
    buffer is taken at whatever it holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for the proof data `dats`, at every grid point. -/
theorem body_obligation (c : Dev nD) :
    BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of @main: the one region, then the reshape of its [1, 16384] result to [16384]. The region is launched with
  the row array x dealt in quarter shares to the four windows that read it and every other array whole; after the last
  grid point the quarters are still there, the output array holds what the write-backs left, and the reshape reads it
  into the program's result buffer. Every weakly fair execution terminates, each window's array ends at the contents
  the proof data computes (an input array unchanged), and the result buffer at the reshape of the output array.
-/
import proofs.«151368_g74328704025318_cont_9to1c4b_615_4_alg».proof.Proof.K.Data
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the program's result buffer holds at the end: the [1, 16384] output array read as [16384]. -/
def result (c : Dev nD) : Buf (Elt F) ((c : Thread nD τ).loc main_v1) :=
  shapeCast S16384 ((dats m 0 c).arrAt 9 cfg0.N : FVec F S1x16384 .f32) shapeCasts_S1x16384_S16384

/-- The ten windows' arrays one by one, each the whole buffer behind it at the window's share: x a quarter to each of
    its four windows, every other array whole. -/
theorem arrays_chain (c : Dev nD) (Fn : (w : Fin cfg0.W) → Buf (Elt F) ((cfg0.win w).arr.view.loc (c.tc : Thread nD τ))) :
    ((dats m 0 c).arrays Fn : sProp 𝕄)
      = iprop((((c : Thread nD τ).loc main_arg0) ↦{fullShare.left.left} Fn 0) ∗ (((c : Thread nD τ).loc main_arg0) ↦{fullShare.left.right} Fn 1)
          ∗ (((c : Thread nD τ).loc main_arg0) ↦{fullShare.right.left} Fn 2) ∗ (((c : Thread nD τ).loc main_arg0) ↦{fullShare.right.right} Fn 3)
          ∗ (((c : Thread nD τ).loc main_arg1) ↦{fullShare} Fn 4) ∗ (((c : Thread nD τ).loc main_arg2) ↦{fullShare} Fn 5)
          ∗ (((c : Thread nD τ).loc main_arg3) ↦{fullShare} Fn 6) ∗ (((c : Thread nD τ).loc main_arg4) ↦{fullShare} Fn 7)
          ∗ (((c : Thread nD τ).loc main_arg5) ↦{fullShare} Fn 8) ∗ (((c : Thread nD τ).loc main_v0) ↦{fullShare} Fn 9)) := by
  have h : ((dats m 0 c).arrays Fn : sProp 𝕄)
      = bigSep Finset.univ fun w : Fin 10 => ((((c : Thread nD τ).loc (Pipeline.arrRef spec0 w)) ↦{(dats m 0 c).share w} Fn w : sProp 𝕄)) := by
    unfold Dat.arrays
    exact bigSep_congr fun w _ => by rw [(arr_whole0 w).set_eq_univ]
  rw [h, bigSep_W0]
  rfl

/-- The distinct buffers behind the ten windows' arrays, each whole: the six arguments and the region's result. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_arg3) ↦{fullShare} V' main_arg3)
          ∗ (((c : Thread nD τ).loc main_arg4) ↦{fullShare} V' main_arg4) ∗ (((c : Thread nD τ).loc main_arg5) ↦{fullShare} V' main_arg5)
          ∗ (((c : Thread nD τ).loc main_v0) ↦{fullShare} V' main_v0)) := by
  unfold Pipeline.arrBufs
  exact bigSep_eq_bigSepL_of_eq [main_arg0, main_arg1, main_arg2, main_arg3, main_arg4, main_arg5, main_v0] (by decide) (by decide) _

/-- The deal at the region's entry: x's full share halved twice gives the four windows on it a quarter each; every
    other array goes whole to its one window. -/
theorem hsplit (c : Dev nD) : (Pipeline.arrBufs spec0 c (V m c) : sProp 𝕄) ⊢ (dats m 0 c).arrays ((dats m 0 c).arrAt · 0) := by
  rw [arrBufs_eq, arrays_chain]
  iintro ⟨H0, H1, H2, H3, H4, H5, H6⟩
  ihave H0 := (pointsTo_share (PosShare.mem_left_op_right fullShare)).1 $$ H0
  icases H0 with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  isplitl [H3]; · iexact H3
  isplitl [H4]; · iexact H4
  isplitl [H5]; · iexact H5
  iexact H6

set_option backward.isDefEq.respectTransparency.types false in
/-- The reshape after the region: it reads the output array, which window 9 holds whole, and writes the result
    buffer, which bypassed the region; every array comes back as it was and the result buffer holds the output array
    read at [16384]. -/
theorem tail (c : Dev nD) (Q' : PUnit → sProp 𝕄) :
    iprop((iprop((dats m 0 c).arrays ((dats m 0 c).arrAt · cfg0.N) ∗ (((c.tc : Thread nD τ).loc main_v1) ↦{fullShare} result m c)) -∗ Q' ⟨⟩)
        ∗ boundary (c.tc : Thread nD τ) ∗ (dats m 0 c).arrays ((dats m 0 c).arrAt · cfg0.N)
        ∗ (((c.tc : Thread nD τ).loc main_v1) ↦{fullShare} V m c main_v1))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  obtain ⟨W, hW0, hW1⟩ : ∃ W : Valuation τ sig (Elt F), W (Proc.devRef .tc main_v0) = (dats m 0 c).arrAt 9 cfg0.N
      ∧ W (Proc.devRef .tc main_v1) = V m c main_v1 :=
    ⟨Function.update (fun b => m (c, b)) (Proc.devRef .tc main_v0) ((dats m 0 c).arrAt 9 cfg0.N), Function.update_self ..,
      Function.update_of_ne (StableHlo.devRef_ne_of_ne (by decide)) ..⟩
  have hne : (Proc.devRef (τ := τ) .tc main_v0) ∉ ({Proc.devRef .tc main_v1} : Finset (DevRef τ sig)) := by
    rw [Finset.mem_singleton]; exact StableHlo.devRef_ne_of_ne (by decide)
  have hpre : (StableHlo.held (c.tc : Thread nD τ) {Proc.devRef .tc main_v0, Proc.devRef .tc main_v1} W : sProp 𝕄)
      = iprop((((c.tc : Thread nD τ).loc main_v0) ↦{fullShare} (dats m 0 c).arrAt 9 cfg0.N)
          ∗ (((c.tc : Thread nD τ).loc main_v1) ↦{fullShare} V m c main_v1)) := by
    unfold StableHlo.held
    rw [bigSep_insert hne, bigSep_singleton, hW0, hW1]; rfl
  have hpost : (StableHlo.held (c.tc : Thread nD τ) {Proc.devRef .tc main_v0, Proc.devRef .tc main_v1}
        (StableHlo.after (hostOps1 (F := F)) W) : sProp 𝕄)
      = iprop((((c.tc : Thread nD τ).loc main_v0) ↦{fullShare} (dats m 0 c).arrAt 9 cfg0.N)
          ∗ (((c.tc : Thread nD τ).loc main_v1) ↦{fullShare} result m c)) := by
    unfold StableHlo.held
    rw [bigSep_insert hne, bigSep_singleton, StableHlo.after_cons, StableHlo.after_nil,
      StableHlo.reshape_result_ne _ _ _ _ _ _ _ (show main_v0 ≠ main_v1 by decide), StableHlo.reshape_result, hW0]; rfl
  have hS : ∀ ops ∈ ([hostOps1] : List (List (HloOp τ sig (Elt F)))), ∀ op ∈ ops,
      op.bufs ⊆ ({Proc.devRef .tc main_v0, Proc.devRef .tc main_v1} : Finset (DevRef τ sig)) := by
    intro ops hops op hop
    rw [List.mem_singleton] at hops; subst hops
    rw [List.mem_singleton] at hop; subst hop
    exact subset_rfl
  have hf : ∀ ops ∈ ([hostOps1] : List (List (HloOp τ sig (Elt F)))), ∀ op ∈ ops, op.fresh = ∅ := by
    intro ops hops op hop
    rw [List.mem_singleton] at hops; subst hops
    rw [List.mem_singleton] at hop; subst hop
    rfl
  have hseq := Pipeline.wp_seqs_then (fun q => (cfgs q).toPCfg (Val := Elt F)) defs₀ Variants.none c
    ({Proc.devRef .tc main_v0, Proc.devRef .tc main_v1} : Finset (DevRef τ sig)) [] (K := Q') [hostOps1] hS hf W
  rw [List.map_cons, List.map_nil, List.append_nil, List.flatten_cons, List.flatten_nil, List.append_nil, hpre, hpost] at hseq
  rw [arrays_chain]
  iintro ⟨Hk, Hb, ⟨H0, H1, H2, H3, H4, H5, H6, H7, H8, H9⟩, Hz⟩
  iapply hseq $$ [Hb H9 Hz]
  · isplitl [Hb]; · iexact Hb
    isplitl [H9]; · iexact H9
    iexact Hz
  iintro ⟨Hb, H9, Hz⟩
  rw [Pipeline.chain_nil, wp_pure]
  imodintro
  iapply Hk
  isplitr [Hz]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hz

/-- @main is the region continued by the reshape. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall])
    (by simp only [List.Forall]) main_chain

set_option backward.isDefEq.respectTransparency.types false in
/-- THE RUN, from the body obligation: every window's array at the proof data's final contents, the result buffer at
    `result`. -/
theorem run_main (hbody : ∀ c, Pipeline.BodyObligationLoose (dats (F := F) m 0 c) (defs₀ (F := F)) Variants.none () Set.univ) :
    θ_run (defs (F := F)) (onTc (τ := τ) (main (F := F))) ⟨m, fun _ => 0, ρ⟩ (fun r => ∀ c : Dev nD,
      (∀ w : Fin cfg0.W, r.2.mem ((cfg0.spec w).arr.view.loc (c.tc : Thread nD τ)) = (dats m 0 c).arrAt w cfg0.N)
      ∧ r.2.mem ((c.tc : Thread nD τ).loc main_v1) = result m c) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => iprop(((c.tc : Thread nD τ).loc main_v1) ↦{fullShare} V m c main_v1))
    (Z' := fun c => iprop(((c.tc : Thread nD τ).loc main_v1) ↦{fullShare} result m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail m c Q')
    (QY := fun c s => s.mem ((c.tc : Thread nD τ).loc main_v1) = result m c)
    (hY := fun c s' => by
      iintro ⟨-, Hz, HSI⟩
      icombine HSI Hz gives %h
      imodintro
      isplitr
      · ipureintro; exact Buf.eq_of_forall_mem_univ h
      · iexact HSI)
    (hQ := fun s h c => ⟨(h c).1, (h c).2.2⟩)

/-- An input window's array is never written: it ends as launched. -/
theorem arrAt_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: every weakly fair execution terminates, nothing faults, the six argument arrays end unchanged. -/
theorem frame (hbody : ∀ c, Pipeline.BodyObligationLoose (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (arrAt_in m c 0 rfl), ((h c).1 4).trans (arrAt_in m c 4 rfl), ((h c).1 5).trans (arrAt_in m c 5 rfl),
     ((h c).1 6).trans (arrAt_in m c 6 rfl), ((h c).1 7).trans (arrAt_in m c 7 rfl), ((h c).1 8).trans (arrAt_in m c 8 rfl)⟩)
    (run_main m ρ hbody)

end Cert.Kernel.Hand

end
-- ==== Proof.lean ====
/-
  The certificate's claims, assembled.

  Both printed kernels are one pallas_call followed by a reshape; each one's frame is its hand-written run (the body
  obligation, then the launch with the row array dealt in quarter shares to the four windows that read it). The
  reference has no kernel: its frame is its run with the result dropped. The idealization rewrote nothing, so the
  word-level kernel and its idealization are the same text and `preserves` has no conjunct.

  The value claim: at the ideal instance the kernel's result buffer ends at the reshape of its output array, which
  entry by entry is the row function of the specification at row n of x and column n of the draws (the blocks'
  write-backs cover the array); the reference's run ends at its last stage, which read one operation at a time is the
  same function of its arguments; the arguments agree.
-/
import proofs.«151368_g74328704025318_cont_9to1c4b_615_4_alg».proof.Defs
import proofs.«151368_g74328704025318_cont_9to1c4b_615_4_alg».proof.Proof.Gen.Kernel
import proofs.«151368_g74328704025318_cont_9to1c4b_615_4_alg».proof.Proof.Gen.KernelIdeal
import proofs.«151368_g74328704025318_cont_9to1c4b_615_4_alg».proof.Proof.Gen.ReferenceIdeal
import proofs.«151368_g74328704025318_cont_9to1c4b_615_4_alg».proof.Proof.Gen.Pre_finite_inputs
import proofs.«151368_g74328704025318_cont_9to1c4b_615_4_alg».proof.Proof.Gen.ReferenceIdeal.Run
import proofs.«151368_g74328704025318_cont_9to1c4b_615_4_alg».proof.Proof.Gen.ReferenceIdeal.Read
import proofs.«151368_g74328704025318_cont_9to1c4b_615_4_alg».proof.Proof.KI.Body
import proofs.«151368_g74328704025318_cont_9to1c4b_615_4_alg».proof.Proof.KI.Launch
import proofs.«151368_g74328704025318_cont_9to1c4b_615_4_alg».proof.Proof.KI.Final
import proofs.«151368_g74328704025318_cont_9to1c4b_615_4_alg».proof.Proof.RefValue
import proofs.«151368_g74328704025318_cont_9to1c4b_615_4_alg».proof.Proof.K.Body
import proofs.«151368_g74328704025318_cont_9to1c4b_615_4_alg».proof.Proof.K.Launch
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ =>
  Cert.Kernel.Hand.frame m ρ (fun c => (Cert.Kernel.Hand.body_obligation m c).loose)

/-- The idealized kernel runs to the end, faults nowhere and leaves its arguments unchanged. -/
theorem frame_ki : Cert.frame_KernelIdeal := fun m ρ _ =>
  Cert.KernelIdeal.Hand.frame m ρ (fun c => (Cert.KernelIdeal.Hand.body_obligation m c).loose)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end with the specification of the (agreeing) arguments in their result
    buffers, the arguments unchanged. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_)
      (Cert.KernelIdeal.Hand.run_main m ρ (fun c => (Cert.KernelIdeal.Hand.body_obligation m c).loose))
    refine ⟨((h c).2).trans (Cert.KernelIdeal.Hand.result_value m c),
      ((h c).1 0).trans (Cert.KernelIdeal.Hand.arrAt_in m c 0 rfl), ((h c).1 4).trans (Cert.KernelIdeal.Hand.arrAt_in m c 4 rfl),
      ((h c).1 5).trans (Cert.KernelIdeal.Hand.arrAt_in m c 5 rfl), ((h c).1 6).trans (Cert.KernelIdeal.Hand.arrAt_in m c 6 rfl),
      ((h c).1 7).trans (Cert.KernelIdeal.Hand.arrAt_in m c 7 rfl), ((h c).1 8).trans (Cert.KernelIdeal.Hand.arrAt_in m c 8 rfl)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, Cert.ReferenceIdeal.RefValue.ref_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
